-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg4 : FVec F S1 .f32) (main_arg5 : FVec F S600000 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S600000 .f32 := Host.absf main_arg5
  let main_cst_8 : FVec F S_ .f32 := constant S_ .f32 0x7F800000#32
  let main_v25 : FVec F S600000 .f32 := broadcastInDim S600000 ![] bcast_S_S600000 main_cst_8
  let main_v26 : IVec S600000 1 := cmpf .olt main_v24 main_v25
  let main_c_9 : IVec S_ 1 := constantI S_ 1 1#1
  let main_v27 : IVec S_ 1 := (fun x v => Host.reduce IntOp.andi x v reducesTo_S600000_S_d0 h_S_) main_v26 main_c_9
  let main_v28 : IVec S_ 1 := andi main_v23 main_v27
  main_v28

def fn {F : FTy → Type} [FloatOps F] (main_arg0 : FVec F S50000x128 .f32) (main_arg1 : FVec F S128x256 .f32) (main_arg2 : FVec F S128 .f32) (main_arg3 : FVec F S1x128 .f32) (main_arg4 : FVec F S1 .f32) (main_arg5 : FVec F S600000 .f32) (main_arg6 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_v13 main_v16
-- ==== Kernel.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S2x600000 : Shape := ⟨2, ![2, 600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S128x128 : Shape := ⟨2, ![128, 128]⟩
abbrev S128x1 : Shape := ⟨2, ![128, 1]⟩
abbrev S1x1 : Shape := ⟨2, ![1, 1]⟩
abbrev S2000x128 : Shape := ⟨2, ![2000, 128]⟩
abbrev S2000x1 : Shape := ⟨2, ![2000, 1]⟩
abbrev S1x2000x1 : Shape := ⟨3, ![1, 2000, 1]⟩
abbrev S1x1x1 : Shape := ⟨3, ![1, 1, 1]⟩

abbrev nBuf : Space → Nat
  | .hbm => 44
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S600000, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x1, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .bf16⟩
  | .hbm, ⟨36, _⟩ => ⟨S128x1, .f32⟩
  | .hbm, ⟨37, _⟩ => ⟨S128x1, .bf16⟩
  | .hbm, ⟨38, _⟩ => ⟨S1x128, .f32⟩
  | .hbm, ⟨39, _⟩ => ⟨S1x1, .f32⟩
  | .hbm, ⟨40, _⟩ => ⟨S1x1, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S128x1, .bf16⟩
  | .local _ .vmem, ⟨10, _⟩ => ⟨S1x1, .f32⟩
  | .local _ .vmem, ⟨11, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![300], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S600000_S600000x1 : S600000.ShapeCasts S600000x1
  slices_S128x256_S128x128_0_0 : S128x256.Slices ![0, 0] S128x128
  slices_S128x256_S128x128_0_128 : S128x256.Slices ![0, 128] S128x128
  transposes_S128x128_S128x128_1_0 : S128x128.Transposes [1, 0] S128x128
  bitsLt_bf16_f32 : FTy.bits .bf16 < FTy.bits .f32
  transposes_S1x128_S128x1_1_0 : S1x128.Transposes [1, 0] S128x1
  shapeCasts_S128_S1x128 : S128.ShapeCasts S1x128
  shapeCasts_S1_S1x1 : S1.ShapeCasts S1x1
  inb_S1x1_S1x1_0_0 : ∀ a, (![0, 0] : Fin 2 → Nat) a + S1x1.size a ≤ S1x1.size a
  h_S1x1 : 0 < S1x1.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x1_S1x2000x1 : S2000x1.ShapeCasts S1x2000x1
  reduces_S1x2000x1_S1 : S1x2000x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  gather_S50000x128_S600000x1_S600000x128_1_0_n_n_0_1_1128_wf : GatherDims.WF S50000x128 S600000x1 S600000x128 [1] [0] [] [0] [] 1 ![1, 128]
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S600000x128.size a
  hwx0_0 : ∀ i : grid0.Coords, EltTy.bits .f32 = 32 ∨ (Rect.block (s := S600000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S600000x128.size a
  hwx0_1 : ∀ i : grid0.Coords, EltTy.bits .f32 = 32 ∨ (Rect.block (s := S600000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S600000x1.size a
  hwx0_2 : ∀ i : grid0.Coords, EltTy.bits .f32 = 32 ∨ (Rect.block (s := S600000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .bf16 = 32 ∨ (Rect.block (s := S128x1) S128x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S2x600000 : Shape := ⟨2, ![2, 600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S600000, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x256, .f32⟩
  | .hbm, ⟨30, _⟩ => ⟨S256x128, .f32⟩
  | .hbm, ⟨31, _⟩ => ⟨S600000x128, .f32⟩
  | .hbm, ⟨32, _⟩ => ⟨S1x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S128x1, .f32⟩
  | .hbm, ⟨39, _⟩ => ⟨S600000x1, .f32⟩
  | .hbm, ⟨40, _⟩ => ⟨S1x1, .f32⟩
  | .hbm, ⟨41, _⟩ => ⟨S600000x1, .f32⟩
  | .hbm, ⟨42, _⟩ => ⟨S600000x1, .f32⟩
  | .hbm, ⟨43, _⟩ => ⟨S600000, .f32⟩
  | .hbm, ⟨44, _⟩ => ⟨S600000, .f32⟩
  | .hbm, ⟨45, _⟩ => ⟨S_, .f32⟩
  | .hbm, ⟨46, _⟩ => ⟨S600000, .f32⟩
  | .hbm, ⟨47, _⟩ => ⟨S600000, .f32⟩
  | .hbm, ⟨48, _⟩ => ⟨S600000, .f32⟩
  | .hbm, ⟨49, _⟩ => ⟨S600000, .f32⟩
  | .hbm, ⟨50, _⟩ => ⟨S600000, .i1⟩
  | .hbm, ⟨51, _⟩ => ⟨S600000, .f32⟩
  | .hbm, ⟨52, _⟩ => ⟨S600000, .f32⟩
  | .hbm, ⟨53, _⟩ => ⟨S600000, .f32⟩
  | .hbm, ⟨54, _⟩ => ⟨S600000, .f32⟩
  | .hbm, ⟨55, _⟩ => ⟨S600000, .f32⟩
  | .hbm, ⟨56, _⟩ => ⟨S600000, .f32⟩
  | .hbm, ⟨57, _⟩ => ⟨S600000, .f32⟩
  | .hbm, ⟨58, _⟩ => ⟨S600000, .f32⟩
  | .hbm, ⟨59, _⟩ => ⟨S600000, .f32⟩
  | .hbm, ⟨60, _⟩ => ⟨S600000, .f32⟩
  | .hbm, ⟨61, _⟩ => ⟨S_, .f32⟩
  | .hbm, ⟨62, _⟩ => ⟨S600000, .f32⟩
  | .hbm, ⟨63, _⟩ => ⟨S600000, .f32⟩
  | .hbm, ⟨64, _⟩ => ⟨S600000, .f32⟩
  | .hbm, ⟨65, _⟩ => ⟨S600000, .f32⟩
  | .hbm, ⟨66, _⟩ => ⟨S_, .f32⟩
  | .hbm, ⟨67, _⟩ => ⟨S600000, .f32⟩
  | .hbm, ⟨68, _⟩ => ⟨S600000, .f32⟩
  | .hbm, ⟨69, _⟩ => ⟨S600000, .f32⟩
  | .hbm, ⟨70, _⟩ => ⟨S600000, .f32⟩
  | .hbm, ⟨71, _⟩ => ⟨S600000, .i1⟩
  | .hbm, ⟨72, _⟩ => ⟨S600000, .f32⟩
  | .hbm, ⟨73, _⟩ => ⟨S600000, .f32⟩
  | .hbm, ⟨74, _⟩ => ⟨S600000, .f32⟩
  | .hbm, ⟨75, _⟩ => ⟨S600000, .f32⟩
  | .hbm, ⟨76, _⟩ => ⟨S600000, .f32⟩
  | .hbm, ⟨77, _⟩ => ⟨S600000, .f32⟩
  | .hbm, ⟨78, _⟩ => ⟨S600000, .f32⟩
  | .hbm, ⟨79, _⟩ => ⟨S600000, .f32⟩
  | .hbm, ⟨80, _⟩ => ⟨S600000, .f32⟩
  | .hbm, ⟨81, _⟩ => ⟨S600000, .f32⟩
  | .hbm, ⟨82, _⟩ => ⟨S600000, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v31 : Ref sig .tc := ⟨.hbm, 59, rfl⟩
abbrev main_v32 : Ref sig .tc := ⟨.hbm, 60, rfl⟩
abbrev main_cst : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call2_v0 : Ref sig .tc := ⟨.hbm, 65, rfl⟩
abbrev main_call2_call0_cst : Ref sig .tc := ⟨.hbm, 66, rfl⟩
abbrev main_call2_call0_v0 : Ref sig .tc := ⟨.hbm, 67, rfl⟩
abbrev main_call2_call0_v1 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_v4 : Ref sig .tc := ⟨.hbm, 71, rfl⟩
abbrev main_call2_call0_v5 : Ref sig .tc := ⟨.hbm, 72, rfl⟩
abbrev main_call2_call0_v6 : Ref sig .tc := ⟨.hbm, 73, rfl⟩
abbrev main_call2_call0_v7 : Ref sig .tc := ⟨.hbm, 74, rfl⟩
abbrev main_call2_call0_v8 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_v11 : Ref sig .tc := ⟨.hbm, 78, rfl⟩
abbrev main_call2_v1 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_3 : Ref sig .tc := ⟨.hbm, 83, rfl⟩
abbrev main_v39 : Ref sig .tc := ⟨.hbm, 84, rfl⟩
abbrev main_cst_4 : Ref sig .tc := ⟨.hbm, 85, rfl⟩
abbrev main_v40 : Ref sig .tc := ⟨.hbm, 86, rfl⟩
abbrev main_v41 : Ref sig .tc := ⟨.hbm, 87, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  transposes_S128x256_S256x128_1_0 : S128x256.Transposes [1, 0] S256x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  transposes_S1x128_S128x1_1_0 : S1x128.Transposes [1, 0] S128x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  shapeCasts_S600000x1_S600000 : S600000x1.ShapeCasts S600000
  reducesTo_S600000_S_d0 : S600000.ReducesTo [0] S_
  h_S_ : 0 < S_.numel
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x1_S600000x1_1_0_0_1_n_n_wf : DotDims.WF S600000x128 S128x1 S600000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.KPieces.lean ====
/-
  What the kernel body leaves in the accumulator's staging buffer, as a value of the blocks it loads.
  At the first grid point the body first stores the zero block, so the accumulator it then reads is zero; at every
  later point it reads what the point before left. In both cases it stores the accumulator plus the tile's sum.
-/
import proofs.«145661_j4123168604526_1_alg».proof.Proof.Gen.KernelIdeal.Frame
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]

/-- The zero offsets of a whole-block rectangle, spelt as a constant function. -/
private theorem hz : (![0, 0] : Fin 2 → Nat) = fun _ => 0 := funext fun a => by fin_cases a <;> rfl

/-- The tile's contribution added to an accumulator `acc`: the body's one arithmetic term of the loaded blocks. -/
abbrev bodyVal (x0 : Vec F S2000x128 .f32) (x1 : Vec F S2000x128 .f32) (x2 : Vec F S2000x1 .f32) (x3 : Vec F S128x128 .bf16) (x4 : Vec F S128x128 .bf16) (x5 : Vec F S1x128 .f32) (x6 : Vec F S128x1 .bf16) (x7 : Vec F S1x1 .f32) (acc : Vec F S1x1 .f32) : Vec F S1x1 .f32 :=
  k0_pay1 (k0_pay3 x0 x1 x3 x4 x5 x6 x7) (k0_pay4 x2) (k0_pay5 x0 x1 x3 x4 x5 x6 x7) acc

/-- The first grid point: the accumulator is reset to the zero block, then the tile's sum is added. -/
theorem out_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x1 .bf16) (harg7 : arg7.IsWhole) (arg8 : Memref sig .tc .vmem S1x1 .f32) (harg8 : arg8.IsWhole) (arg9 : Memref sig .tc .vmem S1x1 .f32) (harg9 : arg9.IsWhole) (hc0 : cond0_0 i)
    (x0 : Vec F S2000x128 .f32) (x1 : Vec F S2000x128 .f32) (x2 : Vec F S2000x1 .f32) (x3 : Vec F S128x128 .bf16) (x4 : Vec F S128x128 .bf16) (x5 : Vec F S1x128 .f32) (x6 : Vec F S128x1 .bf16) (x7 : Vec F S1x1 .f32) :
    out0_A_8 c i arg1 harg1 arg2 harg2 arg3 harg3 arg4 harg4 arg5 harg5 arg6 harg6 arg7 harg7 arg8 harg8 arg9 harg9 hc0 x0 x1 x2 x3 x4 x5 x6 x7 = bodyVal x0 x1 x2 x3 x4 x5 x6 x7 (k0_pay2 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6 x7)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, View.ld_unit_zero (S := S2000x128) hz, View.ld_unit_zero (S := S2000x1) hz, View.ld_unit_zero (S := S128x128) hz, View.ld_unit_zero (S := S1x128) hz, View.ld_unit_zero (S := S128x1) hz, View.ld_unit_zero (S := S1x1) hz]

/-- A later grid point: the tile's sum is added to what the point before left. -/
theorem out_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x1 .bf16) (harg7 : arg7.IsWhole) (arg8 : Memref sig .tc .vmem S1x1 .f32) (harg8 : arg8.IsWhole) (arg9 : Memref sig .tc .vmem S1x1 .f32) (harg9 : arg9.IsWhole) (hc0 : ¬cond0_0 i)
    (x0 : Vec F S2000x128 .f32) (x1 : Vec F S2000x128 .f32) (x2 : Vec F S2000x1 .f32) (x3 : Vec F S128x128 .bf16) (x4 : Vec F S128x128 .bf16) (x5 : Vec F S1x128 .f32) (x6 : Vec F S128x1 .bf16) (x7 : Vec F S1x1 .f32) (xo8 : Vec F S1x1 .f32) :
    out0_B_8 c i arg1 harg1 arg2 harg2 arg3 harg3 arg4 harg4 arg5 harg5 arg6 harg6 arg7 harg7 arg8 harg8 arg9 harg9 hc0 x0 x1 x2 x3 x4 x5 x6 x7 xo8 = bodyVal x0 x1 x2 x3 x4 x5 x6 x7 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 x7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S2000x128) hz, View.ld_unit_zero (S := S2000x1) hz, View.ld_unit_zero (S := S128x128) hz, View.ld_unit_zero (S := S1x128) hz, View.ld_unit_zero (S := S128x1) hz, View.ld_unit_zero (S := S1x1) hz]

end Cert.KernelIdeal.Val

end
-- ==== Proof.Spec.lean ====
/-
  The link-prediction loss, stated once over the extended reals, in the two arrangements the two programs compute.

  An edge e has two gathered feature rows xu e, xv e (128 entries each). Its hidden vector is
  relu (W1 · [xu e ; xv e] + b1) and its logit z e = W2 · hidden + b2.
  * The tiled arrangement splits the 256-term product into the two 128-term halves (the column halves of W1),
    writes log σ(z) = min z 0 − log1p (exp (0 − |z|)) and log σ(−z) = min (0 − z) 0 − log1p (exp (0 − |z|)),
    negates each edge's term, sums tile by tile (300 tiles of 2000 edges), and divides by the number of edges.
  * The plain arrangement takes the 256-term product of the concatenated row, writes
    log σ(z) = −(max (−z) 0 + log1p (exp (−|−z − 0|))), sums all 600000 edges from 0, divides, and negates last.
-/
import Idealize.ShloMosaic.PureOps.Ideal
import Idealize.ShloMosaic.PureOps.Ideal.Laws
import Idealize.ShloMosaic.Lib.ValueIdx

noncomputable section

open scoped BigOperators

namespace LinkLoss

open Idealize.ShloMosaic Idealize.ShloMosaic.ValueIdx

/-- A matrix of extended reals over the literal index type of a rank-2 shape. -/
abbrev Mat (n0 n1 : Nat) : Type := (⟨2, ![n0, n1]⟩ : Shape).Idx → EReal
/-- A vector of extended reals over the literal index type of a rank-1 shape. -/
abbrev Vect (n : Nat) : Type := (⟨1, ![n]⟩ : Shape).Idx → EReal

/-- An extended real that is a real number. -/
def IsFinite (a : EReal) : Prop := a ≠ ⊥ ∧ a ≠ ⊤

/-- Edge r of tile t: tiles are consecutive runs of 2000 edges. -/
def edge (t : Fin 300) (r : Fin 2000) : Fin 600000 := ⟨2000 * t.val + r.val, by have := t.isLt; have := r.isLt; omega⟩

/-- The f32 word of 1.0, and of 600000.0 (the number of edges), kept as words: both arrangements use the same. -/
abbrev one : EReal := Ideal.ofBits .f32 0x3F800000#32
abbrev nEdges : EReal := Ideal.ofBits .f32 0x49127C00#32

section
variable (xu xv : Mat 600000 128) (W1 : Mat 128 256) (b1 : Vect 128) (W2 : Mat 1 128) (b2 : Vect 1) (lab : Vect 600000)

/-! ## The tiled arrangement -/

/-- Hidden unit j of edge e, the product split into the two column halves of W1. -/
def hiddenK (e : Fin 600000) (j : Fin 128) : EReal :=
  max ((∑ k : Fin 128, xu (ix2 e k) * W1 (ix2 j (Fin.castAdd 128 k)))
      + (∑ k : Fin 128, xv (ix2 e k) * W1 (ix2 j (Fin.natAdd 128 k))) + b1 (ix1 j)) 0

/-- The logit of edge e. -/
def logitK (e : Fin 600000) : EReal :=
  (∑ j : Fin 128, hiddenK xu xv W1 b1 e j * W2 (ix2 0 j)) + b2 (ix1 0)

/-- log1p (exp (0 − |z|)), with |z| = max z (−z). -/
def tailK (z : EReal) : EReal := Ideal.log1p (Ideal.exp (0 - max z (-z)))

/-- One edge's loss term: 0 − (l · log σ(z) + (1 − l) · log σ(−z)). -/
def edgeK (z l : EReal) : EReal :=
  0 - (l * (min z 0 - tailK z) + (one - l) * (min (0 - z) 0 - tailK z))

/-- The sum of a tile's 2000 edge terms. -/
def tileK (t : Fin 300) : EReal :=
  ∑ r : Fin 2000, edgeK (logitK xu xv W1 b1 W2 b2 (edge t r)) (lab (ix1 (edge t r)))

/-- The loss: the tiles' sums added up, divided by the number of edges. -/
def lossK : EReal := Ideal.div (∑ t : Fin 300, tileK xu xv W1 b1 W2 b2 lab t) nEdges

/-! ## The plain arrangement -/

/-- The concatenated feature row of edge e. -/
def feats (e : Fin 600000) (k : Fin 256) : EReal :=
  if h : k.val < 128 then xu (ix2 e ⟨k.val, h⟩) else xv (ix2 e ⟨k.val - 128, by have := k.isLt; omega⟩)

/-- Hidden unit j of edge e, one 256-term product. -/
def hiddenR (e : Fin 600000) (j : Fin 128) : EReal :=
  max ((∑ k : Fin 256, feats xu xv e k * W1 (ix2 j k)) + b1 (ix1 j)) 0

/-- The logit of edge e. -/
def logitR (e : Fin 600000) : EReal :=
  (∑ j : Fin 128, hiddenR xu xv W1 b1 e j * W2 (ix2 0 j)) + b2 (ix1 0)

/-- softplus y = max y 0 + log1p (exp (−|y − 0|)). -/
def softplusR (y : EReal) : EReal := max y 0 + Ideal.log1p (Ideal.exp (-(max (y - 0) (-(y - 0)))))

/-- log σ(z) = −softplus (−z). -/
def logSigR (z : EReal) : EReal := -(softplusR (-z))

/-- One edge's term, before the final negation: l · log σ(z) + (1 − l) · log σ(−z). -/
def edgeR (z l : EReal) : EReal := l * logSigR z + (one - l) * logSigR (-z)

/-- The loss: all edges summed from 0, divided by the number of edges, negated. -/
def lossR : EReal :=
  -(Ideal.div (0 + ∑ e : Fin 600000, edgeR (logitR xu xv W1 b1 W2 b2 e) (lab (ix1 e))) nEdges)

end

end LinkLoss

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KPay.lean ====
/-
  The body's arithmetic read at the extended reals, entry by entry: the logits of a tile's 2000 edges from the loaded
  blocks (two 128-term products, bias, relu, a 128-term product, bias), and the tile's sum of edge terms added to the
  accumulator.
-/
import proofs.«145661_j4123168604526_1_alg».proof.Proof.Gen.KernelIdeal.Skeleton
import proofs.«145661_j4123168604526_1_alg».proof.Proof.Spec
import proofs.«145661_j4123168604526_1_alg».proof.Proof.LibRowDims
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.ValueIdx
open Cert.KernelIdeal Cert.KernelIdeal.Gen LinkLoss

/-- The logit of row `r` of a tile, from the loaded blocks: `x0`, `x1` the two feature blocks, `x3`, `x4` the transposed
    column halves of W1, `x5` the bias row, `x6` W2 as a column, `x7` the last bias. -/
def logitBlk (x0 x1 : Vec Ideal S2000x128 .f32) (x3 x4 : Vec Ideal S128x128 .bf16) (x5 : Vec Ideal S1x128 .f32)
    (x6 : Vec Ideal S128x1 .bf16) (x7 : Vec Ideal S1x1 .f32) (r : Fin 2000) : EReal :=
  (∑ j : Fin 128, max ((∑ k : Fin 128, x0 (ix2 r k) * x3 (ix2 k j)) + (∑ k : Fin 128, x1 (ix2 r k) * x4 (ix2 k j))
      + x5 (ix2 0 j)) 0 * x6 (ix2 j 0)) + x7 (ix2 0 0)

/-- The two printed contraction records are the plain `[M, K] × [K, N]` contraction. -/
private theorem dotA_eq : dot_S2000x128_S128x128_S2000x128_1_0_0_1_n_n = DotDims.plain 2000 128 128 := rfl
private theorem dotB_eq : dot_S2000x128_S128x1_S2000x1_1_0_0_1_n_n = DotDims.plain 2000 128 1 := rfl

theorem pay3_apply (x0 x1 : Vec Ideal S2000x128 .f32) (x3 x4 : Vec Ideal S128x128 .bf16) (x5 : Vec Ideal S1x128 .f32)
    (x6 : Vec Ideal S128x1 .bf16) (x7 : Vec Ideal S1x1 .f32) (r : Fin 2000) :
    k0_pay3 x0 x1 x3 x4 x5 x6 x7 (ix2 r 0) = logitBlk x0 x1 x3 x4 x5 x6 x7 r := by
  unfold k0_pay3 logitBlk
  -- the casts to the same shape are the identity
  simp only [shapeCast_self]
  -- each product into the zero accumulator is the sum over the contracted coordinate; the other operations are
  -- read at the entry; the one-row biases are read at row 0; the zero word is 0
  simp only [matmul, dotA_eq, dotB_eq, addf_apply, RowDims.matmul_plain_zero_apply, truncf_apply, maximumf_apply,
    broadcast_apply, broadcastTo_1b_ab_apply, Ideal.ofBits_def, Ideal.ofBits_zero_f32]

theorem pay5_apply (x0 x1 : Vec Ideal S2000x128 .f32) (x3 x4 : Vec Ideal S128x128 .bf16) (x5 : Vec Ideal S1x128 .f32)
    (x6 : Vec Ideal S128x1 .bf16) (x7 : Vec Ideal S1x1 .f32) (r : Fin 2000) :
    k0_pay5 x0 x1 x3 x4 x5 x6 x7 (ix2 r 0)
      = 0 - max (logitBlk x0 x1 x3 x4 x5 x6 x7 r) (-(logitBlk x0 x1 x3 x4 x5 x6 x7 r)) := by
  unfold k0_pay5
  rw [subf_apply, broadcast_apply]
  -- 0 − |z| with |z| = max z (−z), z the logit of row r
  show Ideal.ofBits .f32 0x00000000#32 - FloatOps.absf (k0_pay3 x0 x1 x3 x4 x5 x6 x7 (ix2 r 0)) = _
  rw [Ideal.ofBits_zero_f32, Ideal.absf_def, pay3_apply]

theorem pay4_apply (x2 : Vec Ideal S2000x1 .f32) : k0_pay4 x2 = x2 := by
  unfold k0_pay4
  exact shapeCast_self _ _

theorem pay2_apply (y : S1x1.Idx) : k0_pay2 (F := Ideal) y = 0 := by
  unfold k0_pay2
  exact Ideal.ofBits_zero_f32

/-- The sum over every entry of a column cast to `[1, 2000, 1]` is the sum over the column's 2000 rows: the cast
    keeps the row-major order, and a `[2000, 1]` index is its row. -/
private theorem total_apply (w : FVec Ideal S2000x1 .f32) (j : S1.Idx) :
    multiReduction (F := Ideal) .add [1, 2] S1 (shapeCast S1x2000x1 w shapeCasts_S2000x1_S1x2000x1) 0x00000000#32
        reduces_S1x2000x1_S1 (.inl rfl) rfl j
      = ∑ r : Fin 2000, w (ix2 r 0) := by
  -- every axis of the result has size 1: the reduction is the total sum
  refine (Ideal.multiReduction_add_total _ _ _ (fun b => match b with | ⟨0, _⟩ => rfl) _ _ j).trans ?_
  -- re-index the total through the cast's bijection of indices, then by the two coordinates
  unfold shapeCast
  rw [Equiv.sum_comp (Shape.reshapeEquiv _) w, sum_idx2]
  refine Finset.sum_congr rfl fun r _ => ?_
  exact Fin.sum_univ_one _

/-- The stored value: the accumulator plus the sum over the tile's rows of
    `0 − (l · (min z 0 − log1p (exp n)) + (1 − l) · (min (0 − z) 0 − log1p (exp n)))`. -/
theorem pay1_apply (v29 v31 v34 : FVec Ideal S2000x1 .f32) (v56 : Vec Ideal S1x1 .f32) (y : S1x1.Idx) :
    k0_pay1 v29 v31 v34 v56 y
      = v56 (ix2 0 0) + ∑ r : Fin 2000,
          (0 - (v31 (ix2 r 0) * (min (v29 (ix2 r 0)) 0 - Ideal.log1p (Ideal.exp (v34 (ix2 r 0))))
            + (one - v31 (ix2 r 0)) * (min (0 - v29 (ix2 r 0)) 0 - Ideal.log1p (Ideal.exp (v34 (ix2 r 0)))))) := by
  -- the one index of a 1×1 array
  obtain ⟨p, q, rfl⟩ : ∃ (p : Fin 1) (q : Fin 1), y = ix2 p q := ⟨y 0, y 1, eq_ix2 y⟩
  obtain rfl : p = 0 := Subsingleton.elim _ _
  obtain rfl : q = 0 := Subsingleton.elim _ _
  unfold k0_pay1
  simp only [shapeCast_self]
  rw [addf_apply, broadcast_apply]
  refine congrArg (v56 (ix2 0 0) + ·) ?_
  -- the extracted entry of the reduced vector is the total sum, whatever index it is read at
  unfold extractAt
  refine (total_apply _ (Shape.reshapeEquiv shapeCasts_S1_S1x1x1 _)).trans ?_
  -- row by row, the summand read through the pointwise operations
  refine Finset.sum_congr rfl fun r _ => ?_
  simp only [subf_apply, addf_apply, mulf_apply, minimumf_apply, broadcast_apply, Ideal.ofBits_def,
    Ideal.ofBits_zero_f32]
  rfl

end Cert.KernelIdeal.Val

end
-- ==== Proof.SpecGather.lean ====
/-
  The gathered feature rows, as one function of the node table and the index pairs, stated once so that the two
  programs' gathers are the same term: row `row` of the pairs (a slice, flattened), each negative index wrapped by the
  table's height 50000, laid out as a column of start indices, and the table's rows gathered at them (a start index is
  clamped into the table: `RowDims.rowGather_apply`). A gathered entry is an entry of the table.
-/
import proofs.«145661_j4123168604526_1_alg».proof.Proof.Spec
import proofs.«145661_j4123168604526_1_alg».proof.Proof.LibRowDims

noncomputable section

namespace LinkLoss

open Idealize.ShloMosaic Idealize.ShloMosaic.ValueIdx Idealize.ShloMosaic.RowDims

abbrev SPairs : Shape := ⟨2, ![2, 600000]⟩
abbrev SRow : Shape := ⟨2, ![1, 600000]⟩
abbrev SFlat : Shape := ⟨1, ![600000]⟩
abbrev SCol : Shape := ⟨2, ![600000, 1]⟩
abbrev SScalar : Shape := ⟨0, ![]⟩

/-- The column of start indices from row `off 0` of the pairs: negative entries wrapped by 50000. -/
def startCol (pairs : IVec SPairs 32) (off : Fin 2 → Nat) (h1 : SPairs.Slices off SRow) (h2 : SRow.ShapeCasts SFlat)
    (h3 : SScalar.BroadcastsInDim SFlat (![] : Fin 0 → Fin SFlat.rank))
    (h4 : SFlat.BroadcastsInDim SCol (![0] : Fin 1 → Fin SCol.rank)) : IVec SCol 32 :=
  broadcastInDim SCol ![0] h4
    (select (cmpi .slt (shapeCast SFlat (extractStridedSlice SRow off pairs h1) h2)
        (broadcastInDim SFlat ![] h3 (constantI SScalar 32 0#32)))
      (addi (shapeCast SFlat (extractStridedSlice SRow off pairs h1) h2)
        (broadcastInDim SFlat ![] h3 (constantI SScalar 32 50000#32)))
      (shapeCast SFlat (extractStridedSlice SRow off pairs h1) h2))

/-- The table's rows gathered at those start indices. -/
def gatherRows {α : Type} (x : (⟨2, ![50000, 128]⟩ : Shape).Idx → α) (pairs : IVec SPairs 32) (off : Fin 2 → Nat)
    (h1 : SPairs.Slices off SRow) (h2 : SRow.ShapeCasts SFlat)
    (h3 : SScalar.BroadcastsInDim SFlat (![] : Fin 0 → Fin SFlat.rank))
    (h4 : SFlat.BroadcastsInDim SCol (![0] : Fin 1 → Fin SCol.rank))
    (wf : GatherDims.WF ⟨2, ![50000, 128]⟩ ⟨2, ![600000, 1]⟩ ⟨2, ![600000, 128]⟩ [1] [0] [] [0] [] 1 ![1, 128]) :
    (⟨2, ![600000, 128]⟩ : Shape).Idx → α :=
  Host.gather (rowGather 50000 128 600000 wf) x (startCol pairs off h1 h2 h3 h4)

/-- Every gathered entry is an entry of the table, so a table of real numbers gathers to real numbers. -/
theorem gatherRows_finite (x : Mat 50000 128) (hx : ∀ i, IsFinite (x i)) (pairs : IVec SPairs 32) (off : Fin 2 → Nat)
    (h1 : SPairs.Slices off SRow) (h2 : SRow.ShapeCasts SFlat)
    (h3 : SScalar.BroadcastsInDim SFlat (![] : Fin 0 → Fin SFlat.rank))
    (h4 : SFlat.BroadcastsInDim SCol (![0] : Fin 1 → Fin SCol.rank))
    (wf : GatherDims.WF ⟨2, ![50000, 128]⟩ ⟨2, ![600000, 1]⟩ ⟨2, ![600000, 128]⟩ [1] [0] [] [0] [] 1 ![1, 128])
    (i : (⟨2, ![600000, 128]⟩ : Shape).Idx) : IsFinite (gatherRows x pairs off h1 h2 h3 h4 wf i) := by
  obtain ⟨p, q, rfl⟩ : ∃ (p : Fin 600000) (q : Fin 128), i = ix2 p q := ⟨i 0, i 1, eq_ix2 i⟩
  unfold gatherRows
  rw [rowGather_apply (by norm_num : 0 < 50000)]
  exact hx _

end LinkLoss

end
-- ==== Proof.KBlocks.lean ====
/-
  What the kernel's windows hold, entry by entry, in terms of the program's argument arrays (read at the extended reals).
  Window 0 and 1 stage 2000-row blocks of the two gathered feature arrays, window 2 the matching 2000 labels; windows
  3 to 7 stage whole arrays: the two transposed column halves of W1, b1 as a row, W2 as a column, b2 as a 1×1 array.
-/
import proofs.«145661_j4123168604526_1_alg».proof.Proof.Gen.KernelIdeal.Frame
import proofs.«145661_j4123168604526_1_alg».proof.Proof.SpecGather
import Idealize.ShloMosaic.Lib.Pipeline.Value
import Idealize.ShloMosaic.Lib.ValueLayout
import Idealize.ShloMosaic.Lib.StableHlo.Run

noncomputable section

namespace Cert.KernelIdeal.Val

open Idealize.ShloMosaic Idealize.ShloMosaic.TcCoe Idealize.SL.Sem Idealize.ShloMosaic.ValueIdx
open Cert.KernelIdeal Cert.KernelIdeal.Gen LinkLoss

variable (m : (ℓ : Loc nD τ sig) → Buf (Elt Ideal) ℓ)

/-- The argument arrays as launched, at their literal types. -/
abbrev aX (c : Dev nD) : Mat 50000 128 := m ((c : Thread nD τ).loc main_arg0)
abbrev aW1 (c : Dev nD) : Mat 128 256 := m ((c : Thread nD τ).loc main_arg1)
abbrev aB1 (c : Dev nD) : Vect 128 := m ((c : Thread nD τ).loc main_arg2)
abbrev aW2 (c : Dev nD) : Mat 1 128 := m ((c : Thread nD τ).loc main_arg3)
abbrev aB2 (c : Dev nD) : Vect 1 := m ((c : Thread nD τ).loc main_arg4)
abbrev aLab (c : Dev nD) : Vect 600000 := m ((c : Thread nD τ).loc main_arg5)
abbrev aPairs (c : Dev nD) : IVec SPairs 32 := m ((c : Thread nD τ).loc main_arg6)

/-- The two gathered feature arrays. -/
abbrev gU (c : Dev nD) : Mat 600000 128 :=
  gatherRows (aX m c) (aPairs m c) ![0, 0] Facts₀.slices_S2x600000_S1x600000_0_0 Facts₀.shapeCasts_S1x600000_S600000 Facts₀.bcast_S_S600000
    Facts₀.bcast_S600000_S600000x1_0 Facts₀.gather_S50000x128_S600000x1_S600000x128_1_0_n_n_0_1_1128_wf
abbrev gV (c : Dev nD) : Mat 600000 128 :=
  gatherRows (aX m c) (aPairs m c) ![1, 0] Facts₀.slices_S2x600000_S1x600000_1_0 Facts₀.shapeCasts_S1x600000_S600000 Facts₀.bcast_S_S600000
    Facts₀.bcast_S600000_S600000x1_0 Facts₀.gather_S50000x128_S600000x1_S600000x128_1_0_n_n_0_1_1128_wf

/-- The grid point as a tile number. -/
def tile (t : Fin cfg0.N) : Fin 300 := ⟨t.val, lt_of_lt_of_eq t.isLt N_0⟩

/-- The windows' blocks at a point, at their literal types. -/
abbrev blk0 (c : Dev nD) (t : Fin cfg0.N) : Vec Ideal S2000x128 .f32 := iblk m c 0 t
abbrev blk1 (c : Dev nD) (t : Fin cfg0.N) : Vec Ideal S2000x128 .f32 := iblk m c 1 t
abbrev blk2 (c : Dev nD) (t : Fin cfg0.N) : Vec Ideal S2000x1 .f32 := iblk m c 2 t
abbrev blk3 (c : Dev nD) (t : Fin cfg0.N) : Vec Ideal S128x128 .bf16 := iblk m c 3 t
abbrev blk4 (c : Dev nD) (t : Fin cfg0.N) : Vec Ideal S128x128 .bf16 := iblk m c 4 t
abbrev blk5 (c : Dev nD) (t : Fin cfg0.N) : Vec Ideal S1x128 .f32 := iblk m c 5 t
abbrev blk6 (c : Dev nD) (t : Fin cfg0.N) : Vec Ideal S128x1 .bf16 := iblk m c 6 t
abbrev blk7 (c : Dev nD) (t : Fin cfg0.N) : Vec Ideal S1x1 .f32 := iblk m c 7 t

/-! ## The index maps, decided once over the grid -/

private theorem idx0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)
private theorem idx1 : ∀ t : Fin cfg0.N, win0_1.index t (0 : Fin 2) = t.val ∧ win0_1.index t 1 = 0 :=
  (by decide +kernel : ∀ t : Fin grid0.N, win0_1.index t (0 : Fin 2) = t.val ∧ win0_1.index t 1 = 0)
private theorem idx2 : ∀ t : Fin cfg0.N, win0_2.index t (0 : Fin 2) = t.val ∧ win0_2.index t 1 = 0 :=
  (by decide +kernel : ∀ t : Fin grid0.N, win0_2.index t (0 : Fin 2) = t.val ∧ win0_2.index t 1 = 0)
private theorem idx3 : ∀ t : Fin cfg0.N, win0_3.index t (0 : Fin 2) = 0 ∧ win0_3.index t 1 = 0 :=
  (by decide +kernel : ∀ t : Fin grid0.N, win0_3.index t (0 : Fin 2) = 0 ∧ win0_3.index t 1 = 0)
private theorem idx4 : ∀ t : Fin cfg0.N, win0_4.index t (0 : Fin 2) = 0 ∧ win0_4.index t 1 = 0 :=
  (by decide +kernel : ∀ t : Fin grid0.N, win0_4.index t (0 : Fin 2) = 0 ∧ win0_4.index t 1 = 0)
private theorem idx5 : ∀ t : Fin cfg0.N, win0_5.index t (0 : Fin 2) = 0 ∧ win0_5.index t 1 = 0 :=
  (by decide +kernel : ∀ t : Fin grid0.N, win0_5.index t (0 : Fin 2) = 0 ∧ win0_5.index t 1 = 0)
private theorem idx6 : ∀ t : Fin cfg0.N, win0_6.index t (0 : Fin 2) = 0 ∧ win0_6.index t 1 = 0 :=
  (by decide +kernel : ∀ t : Fin grid0.N, win0_6.index t (0 : Fin 2) = 0 ∧ win0_6.index t 1 = 0)
private theorem idx7 : ∀ t : Fin cfg0.N, win0_7.index t (0 : Fin 2) = 0 ∧ win0_7.index t 1 = 0 :=
  (by decide +kernel : ∀ t : Fin grid0.N, win0_7.index t (0 : Fin 2) = 0 ∧ win0_7.index t 1 = 0)

/-! ## The windows' arrays as the region finds them: the host operations' terms of the arguments -/

private theorem arr10 (c : Dev nD) : (V m c main_v10 : S600000x128.Idx → EReal) = gU m c := by
  show StableHlo.after hostOps0 (fun b => m (c, b)) (Proc.devRef .tc main_v10) = _
  after_results <;> rfl

private theorem arr17 (c : Dev nD) : (V m c main_v17 : S600000x128.Idx → EReal) = gV m c := by
  show StableHlo.after hostOps0 (fun b => m (c, b)) (Proc.devRef .tc main_v17) = _
  after_results <;> rfl

private theorem arr18 (c : Dev nD) : (V m c main_v18 : S600000x1.Idx → EReal) = shapeCast S600000x1 (aLab m c) Facts₀.shapeCasts_S600000_S600000x1 := by
  show StableHlo.after hostOps0 (fun b => m (c, b)) (Proc.devRef .tc main_v18) = _
  after_results <;> rfl

private theorem arr22 (c : Dev nD) : (V m c main_v22 : S128x128.Idx → EReal) = truncf (F := Ideal) .bf16 (transpose S128x128 [1, 0] (extractStridedSlice S128x128 ![0, 0] (aW1 m c) Facts₀.slices_S128x256_S128x128_0_0) Facts₀.transposes_S128x128_S128x128_1_0) Facts₀.bitsLt_bf16_f32 := by
  show StableHlo.after hostOps0 (fun b => m (c, b)) (Proc.devRef .tc main_v22) = _
  after_results <;> rfl

private theorem arr24 (c : Dev nD) : (V m c main_v24 : S128x128.Idx → EReal) = truncf (F := Ideal) .bf16 (transpose S128x128 [1, 0] (extractStridedSlice S128x128 ![0, 128] (aW1 m c) Facts₀.slices_S128x256_S128x128_0_128) Facts₀.transposes_S128x128_S128x128_1_0) Facts₀.bitsLt_bf16_f32 := by
  show StableHlo.after hostOps0 (fun b => m (c, b)) (Proc.devRef .tc main_v24) = _
  after_results <;> rfl

private theorem arr26 (c : Dev nD) : (V m c main_v26 : S128x1.Idx → EReal) = truncf (F := Ideal) .bf16 (transpose S128x1 [1, 0] (aW2 m c) Facts₀.transposes_S1x128_S128x1_1_0) Facts₀.bitsLt_bf16_f32 := by
  show StableHlo.after hostOps0 (fun b => m (c, b)) (Proc.devRef .tc main_v26) = _
  after_results <;> rfl

private theorem arr27 (c : Dev nD) : (V m c main_v27 : S1x128.Idx → EReal) = shapeCast S1x128 (aB1 m c) Facts₀.shapeCasts_S128_S1x128 := by
  show StableHlo.after hostOps0 (fun b => m (c, b)) (Proc.devRef .tc main_v27) = _
  after_results <;> rfl

private theorem arr28 (c : Dev nD) : (V m c main_v28 : S1x1.Idx → EReal) = shapeCast S1x1 (aB2 m c) Facts₀.shapeCasts_S1_S1x1 := by
  show StableHlo.after hostOps0 (fun b => m (c, b)) (Proc.devRef .tc main_v28) = _
  after_results <;> rfl

/-! ## The blocks read at an index -/

theorem blk0_apply (c : Dev nD) (t : Fin cfg0.N) (r : Fin 2000) (k : Fin 128) :
    blk0 m c t (ix2 r k) = gU m c (ix2 (edge (tile t) r) k) := by
  have hi := idx0 t
  show iblk m c 0 t (ix2 r k) = _
  unfold iblk
  rw [View.read_apply]
  show V m c main_v10 _ = _
  rw [arr10 m c]
  congr 1
  funext a
  apply Fin.ext
  match a with
  | ⟨0, _⟩ => show win0_0.index t 0 * 2000 + 1 * r.val = 2000 * t.val + r.val; rw [hi.1]; omega
  | ⟨1, _⟩ => show win0_0.index t 1 * 128 + 1 * k.val = k.val; rw [hi.2]; omega

theorem blk1_apply (c : Dev nD) (t : Fin cfg0.N) (r : Fin 2000) (k : Fin 128) :
    blk1 m c t (ix2 r k) = gV m c (ix2 (edge (tile t) r) k) := by
  have hi := idx1 t
  show iblk m c 1 t (ix2 r k) = _
  unfold iblk
  rw [View.read_apply]
  show V m c main_v17 _ = _
  rw [arr17 m c]
  congr 1
  funext a
  apply Fin.ext
  match a with
  | ⟨0, _⟩ => show win0_1.index t 0 * 2000 + 1 * r.val = 2000 * t.val + r.val; rw [hi.1]; omega
  | ⟨1, _⟩ => show win0_1.index t 1 * 128 + 1 * k.val = k.val; rw [hi.2]; omega

theorem blk2_apply (c : Dev nD) (t : Fin cfg0.N) (r : Fin 2000) :
    blk2 m c t (ix2 r 0) = aLab m c (ix1 (edge (tile t) r)) := by
  have hi := idx2 t
  show iblk m c 2 t (ix2 r 0) = _
  unfold iblk
  rw [View.read_apply]
  show V m c main_v18 _ = _
  rw [arr18 m c]
  refine shapeCast_apply _ _ _ (ix1 (edge (tile t) r)) ?_
  rw [Shape.rowMajor_val_one, Shape.rowMajor_val_two]
  show 2000 * t.val + r.val = (win0_2.index t 0 * 2000 + 1 * r.val) * 1 + (win0_2.index t 1 * 1 + 1 * 0)
  rw [hi.1, hi.2]; omega

theorem blk3_apply (c : Dev nD) (t : Fin cfg0.N) (k j : Fin 128) :
    blk3 m c t (ix2 k j) = aW1 m c (ix2 j (Fin.castAdd 128 k)) := by
  have hi := idx3 t
  show iblk m c 3 t (ix2 k j) = _
  unfold iblk
  rw [View.read_apply]
  show V m c main_v22 _ = _
  rw [arr22 m c, truncf_apply]
  refine (transpose_apply _ _ _ _ (ix2 j k) ?_).trans ?_
  · intro b
    match b with
    | ⟨0, _⟩ => show k.val = win0_3.index t 0 * 128 + 1 * k.val; rw [hi.1]; omega
    | ⟨1, _⟩ => show j.val = win0_3.index t 1 * 128 + 1 * j.val; rw [hi.2]; omega
  · refine extractStridedSlice_apply _ _ _ _ (ix2 j (Fin.castAdd 128 k)) ?_
    intro a
    match a with
    | ⟨0, _⟩ => show j.val = 0 + j.val; omega
    | ⟨1, _⟩ => show k.val = 0 + k.val; omega

theorem blk4_apply (c : Dev nD) (t : Fin cfg0.N) (k j : Fin 128) :
    blk4 m c t (ix2 k j) = aW1 m c (ix2 j (Fin.natAdd 128 k)) := by
  have hi := idx4 t
  show iblk m c 4 t (ix2 k j) = _
  unfold iblk
  rw [View.read_apply]
  show V m c main_v24 _ = _
  rw [arr24 m c, truncf_apply]
  refine (transpose_apply _ _ _ _ (ix2 j k) ?_).trans ?_
  · intro b
    match b with
    | ⟨0, _⟩ => show k.val = win0_4.index t 0 * 128 + 1 * k.val; rw [hi.1]; omega
    | ⟨1, _⟩ => show j.val = win0_4.index t 1 * 128 + 1 * j.val; rw [hi.2]; omega
  · refine extractStridedSlice_apply _ _ _ _ (ix2 j (Fin.natAdd 128 k)) ?_
    intro a
    match a with
    | ⟨0, _⟩ => show j.val = 0 + j.val; omega
    | ⟨1, _⟩ => show 128 + k.val = 128 + k.val; rfl

theorem blk5_apply (c : Dev nD) (t : Fin cfg0.N) (j : Fin 128) :
    blk5 m c t (ix2 0 j) = aB1 m c (ix1 j) := by
  have hi := idx5 t
  show iblk m c 5 t (ix2 0 j) = _
  unfold iblk
  rw [View.read_apply]
  show V m c main_v27 _ = _
  rw [arr27 m c]
  refine shapeCast_apply _ _ _ (ix1 j) ?_
  rw [Shape.rowMajor_val_one, Shape.rowMajor_val_two]
  show j.val = (win0_5.index t 0 * 1 + 1 * 0) * 128 + (win0_5.index t 1 * 128 + 1 * j.val)
  rw [hi.1, hi.2]; omega

theorem blk6_apply (c : Dev nD) (t : Fin cfg0.N) (j : Fin 128) :
    blk6 m c t (ix2 j 0) = aW2 m c (ix2 0 j) := by
  have hi := idx6 t
  show iblk m c 6 t (ix2 j 0) = _
  unfold iblk
  rw [View.read_apply]
  show V m c main_v26 _ = _
  rw [arr26 m c, truncf_apply]
  refine transpose_apply _ _ _ _ (ix2 0 j) ?_
  intro b
  match b with
  | ⟨0, _⟩ => show j.val = win0_6.index t 0 * 128 + 1 * j.val; rw [hi.1]; omega
  | ⟨1, _⟩ => show 0 = win0_6.index t 1 * 1 + 1 * 0; rw [hi.2]

theorem blk7_apply (c : Dev nD) (t : Fin cfg0.N) :
    blk7 m c t (ix2 0 0) = aB2 m c (ix1 0) := by
  have hi := idx7 t
  show iblk m c 7 t (ix2 0 0) = _
  unfold iblk
  rw [View.read_apply]
  show V m c main_v28 _ = _
  rw [arr28 m c]
  refine shapeCast_apply _ _ _ (ix1 0) ?_
  rw [Shape.rowMajor_val_one, Shape.rowMajor_val_two]
  show 0 = (win0_7.index t 0 * 1 + 1 * 0) * 1 + (win0_7.index t 1 * 1 + 1 * 0)
  rw [hi.1, hi.2]

end Cert.KernelIdeal.Val

end
-- ==== Proof.KRun.lean ====
/-
  The kernel program's result, read at the extended reals: the accumulator after grid point n is the sum of the
  first n + 1 tiles' sums (point 0 starts from the zero block), the result array is the accumulator after the last
  point, and the two host operations after the region flatten it and divide by the number of edges.
-/
import proofs.«145661_j4123168604526_1_alg».proof.Proof.KPieces
import proofs.«145661_j4123168604526_1_alg».proof.Proof.KPay
import proofs.«145661_j4123168604526_1_alg».proof.Proof.KBlocks
import Idealize.ShloMosaic.Lib.Pipeline.Value
import Idealize.ShloMosaic.Lib.StableHlo.Run
import Idealize.ShloMosaic.Lib.Tactic

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen LinkLoss

variable (m : (ℓ : Loc nD τ sig) → Buf (Elt Ideal) ℓ) (ρ : Dev nD → PrngReg)

/-- The loss in the tiled arrangement, of the launch contents of the arguments. -/
abbrev lossOf (c : Dev nD) : EReal :=
  lossK (gU m c) (gV m c) (aW1 m c) (aB1 m c) (aW2 m c) (aB2 m c) (aLab m c)

/-- The stored value at loaded blocks: the accumulator's entry plus the sum of the rows' edge terms. -/
theorem bodyVal_apply (x0 x1 : Vec Ideal S2000x128 .f32) (x2 : Vec Ideal S2000x1 .f32) (x3 x4 : Vec Ideal S128x128 .bf16)
    (x5 : Vec Ideal S1x128 .f32) (x6 : Vec Ideal S128x1 .bf16) (x7 : Vec Ideal S1x1 .f32) (acc : Vec Ideal S1x1 .f32)
    (y : S1x1.Idx) :
    bodyVal x0 x1 x2 x3 x4 x5 x6 x7 acc y
      = acc (ix2 0 0) + ∑ r : Fin 2000, edgeK (logitBlk x0 x1 x3 x4 x5 x6 x7 r) (x2 (ix2 r 0)) := by
  refine (pay1_apply _ _ _ acc y).trans ?_
  refine congrArg (fun s => acc (ix2 0 0) + s) (Finset.sum_congr rfl fun r _ => ?_)
  rw [pay3_apply, pay5_apply, pay4_apply]
  rfl

/-- A tile's sum, of the launch contents. -/
abbrev tileOf (c : Dev nD) (t : Fin 300) : EReal :=
  tileK (gU m c) (gV m c) (aW1 m c) (aB1 m c) (aW2 m c) (aB2 m c) (aLab m c) t

/-- Row r of the blocks at point t carries the logit of edge r of tile t. -/
theorem logitBlk_blk (c : Dev nD) (t : Fin cfg0.N) (r : Fin 2000) :
    logitBlk (blk0 m c t) (blk1 m c t) (blk3 m c t) (blk4 m c t) (blk5 m c t) (blk6 m c t) (blk7 m c t) r
      = logitK (gU m c) (gV m c) (aW1 m c) (aB1 m c) (aW2 m c) (aB2 m c) (edge (tile t) r) := by
  unfold logitBlk logitK hiddenK
  rw [blk7_apply]
  refine congrArg (fun s => s + aB2 m c (ix1 0)) (Finset.sum_congr rfl fun j _ => ?_)
  rw [blk5_apply, blk6_apply]
  refine congrArg (fun s => max (s + aB1 m c (ix1 j)) 0 * aW2 m c (ix2 0 j)) ?_
  refine congrArg₂ (fun a b => a + b) (Finset.sum_congr rfl fun k _ => ?_) (Finset.sum_congr rfl fun k _ => ?_)
  · rw [blk0_apply, blk3_apply]
  · rw [blk1_apply, blk4_apply]

/-- The body at point t adds tile t's sum to the accumulator. -/
theorem tile_eq (c : Dev nD) (t : Fin cfg0.N) (acc : Vec Ideal S1x1 .f32) (y : S1x1.Idx) :
    bodyVal (blk0 m c t) (blk1 m c t) (blk2 m c t) (blk3 m c t) (blk4 m c t) (blk5 m c t) (blk6 m c t) (blk7 m c t) acc y
      = acc (ix2 0 0) + tileOf m c (tile t) := by
  refine (bodyVal_apply (blk0 m c t) (blk1 m c t) (blk2 m c t) (blk3 m c t) (blk4 m c t) (blk5 m c t) (blk6 m c t)
    (blk7 m c t) acc y).trans ?_
  unfold tileOf tileK
  refine congrArg (fun s => acc (ix2 0 0) + s) (Finset.sum_congr rfl fun r _ => ?_)
  rw [logitBlk_blk, blk2_apply]

/-- The first point leaves the tile's sum over the zero block. -/
theorem outsAt_first (c : Dev nD) (t : Fin cfg0.N) (h0 : t.val % 300 = 0) :
    outsAt0 m c t.val t.isLt
      = bodyVal (blk0 m c t) (blk1 m c t) (blk2 m c t) (blk3 m c t) (blk4 m c t) (blk5 m c t) (blk6 m c t) (blk7 m c t)
          (k0_pay2 (F := Ideal)) := by
  rw [outsAt0_A m c t h0]
  exact out_A c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) ((hcond0_0 t).mpr h0)
    (blk0 m c t) (blk1 m c t) (blk2 m c t) (blk3 m c t) (blk4 m c t) (blk5 m c t) (blk6 m c t) (blk7 m c t)

/-- A later point leaves the tile's sum over what the point before left. -/
theorem outsAt_later (c : Dev nD) (t : Fin cfg0.N) (h0 : ¬t.val % 300 = 0) :
    outsAt0 m c t.val t.isLt
      = bodyVal (blk0 m c t) (blk1 m c t) (blk2 m c t) (blk3 m c t) (blk4 m c t) (blk5 m c t) (blk6 m c t) (blk7 m c t)
          (outsAt0 m c (t.val - 1) (Nat.lt_of_le_of_lt (Nat.sub_le _ _) t.isLt)) := by
  rw [outsAt0_B m c t h0]
  exact out_B c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t)
    (fun h => h0 ((hcond0_0 t).mp h))
    (blk0 m c t) (blk1 m c t) (blk2 m c t) (blk3 m c t) (blk4 m c t) (blk5 m c t) (blk6 m c t) (blk7 m c t)
    (outsAt0 m c (t.val - 1) (Nat.lt_of_le_of_lt (Nat.sub_le _ _) t.isLt))

/-- The sum of the first n tiles' sums. -/
def partialSum (c : Dev nD) (n : ℕ) : EReal :=
  ∑ s ∈ Finset.range n, if h : s < 300 then tileOf m c ⟨s, h⟩ else 0

/-- After point n the accumulator holds the sum of the first n + 1 tiles' sums. -/
theorem outsAt_eq (c : Dev nD) : ∀ (n : ℕ) (h : n < cfg0.N),
    (outsAt0 m c n h : Vec Ideal S1x1 .f32) = fun _ => partialSum m c (n + 1)
  | 0, h => by
    have hN : cfg0.N = 300 := N_0
    refine (outsAt_first m c ⟨0, h⟩ rfl).trans (funext fun y => ?_)
    refine (tile_eq m c ⟨0, h⟩ (k0_pay2 (F := Ideal)) y).trans ?_
    rw [pay2_apply, zero_add]
    unfold partialSum
    rw [Finset.sum_range_one, dif_pos (by norm_num : (0 : ℕ) < 300)]
    rfl
  | n + 1, h => by
    have hN : cfg0.N = 300 := N_0
    have hB : ¬(⟨n + 1, h⟩ : Fin cfg0.N).val % 300 = 0 := by dsimp only; omega
    refine (outsAt_later m c ⟨n + 1, h⟩ hB).trans (funext fun y => ?_)
    refine (tile_eq m c ⟨n + 1, h⟩ _ y).trans ?_
    have ih := outsAt_eq c n (Nat.lt_of_succ_lt h)
    have e : outsAt0 m c ((⟨n + 1, h⟩ : Fin cfg0.N).val - 1)
        (Nat.lt_of_le_of_lt (Nat.sub_le _ _) (⟨n + 1, h⟩ : Fin cfg0.N).isLt) (ix2 0 0) = partialSum m c (n + 1) :=
      congrFun ih (ix2 0 0)
    rw [e]
    have hlt : n + 1 < 300 := by omega
    show _ = partialSum m c (n + 1 + 1)
    conv_rhs => unfold partialSum
    rw [Finset.sum_range_succ, dif_pos hlt]
    rfl

/-- The sum of all 300 tiles' sums. -/
abbrev total (c : Dev nD) : EReal := ∑ t : Fin 300, tileOf m c t

theorem partialSum_all (c : Dev nD) : partialSum m c 300 = total m c := by
  unfold partialSum total
  rw [← Fin.sum_univ_eq_sum_range (fun s => if h : s < 300 then tileOf m c ⟨s, h⟩ else 0) 300]
  exact Finset.sum_congr rfl fun t _ => dif_pos t.isLt

/-- The result array's contents: its one entry at the total. -/
abbrev result (c : Dev nD) : Buf (Elt Ideal) ((c : Thread nD τ).loc main_v29) := fun _ => total m c

/-- The last point. -/
abbrev tLast : Fin cfg0.N := ⟨299, by rw [show cfg0.N = 300 from N_0]; norm_num⟩

/-- The one write-back, after the last point, writes the total. -/
theorem flushed_eq (c : Dev nD) (t : Fin cfg0.N) (hf : (cfg0.win 8).flush t = true) :
    (dats m 0 c).flushed 8 t = ((cfg0.win 8).blk t).view.read (Elt Ideal) (result m c) := by
  have hN : cfg0.N = 300 := N_0
  have h299 : t.val = 299 := by have := (flush0_8 t).mp hf; have := t.isLt; omega
  obtain rfl : t = tLast := Fin.ext h299
  show (cfg0.win 8).cut (grid0.coords tLast) ((dats m 0 c).after 8 tLast) = _
  rw [after0_8, outsAt_eq, show (tLast.val + 1) = 300 from rfl, partialSum_all]
  have hz' : (fun a => win0_8.index tLast a * main_v29.ty.shape.size a) = fun _ => 0 :=
    funext fun a => by fin_cases a <;> decide +kernel
  exact (Memref.read_access_unit_zero (Elt Ideal) main_v29 hz' (fun a => by rw [congrFun hz' a]; simp) (result m c)).symm

/-- The write-back after the last point covers the one-entry result array, so it ends at the total. -/
theorem final_o (c : Dev nD) : (dats m 0 c).arrAt 8 cfg0.N = result m c :=
  (dats m 0 c).arrAt_eq_of_cover 8 (result m c) (flushed_eq m c) fun i =>
    ⟨tLast, (flush0_8 tLast).mpr rfl, by
      show i ∈ ((View.whole main_v29).slice (win0_8.rect tLast)).set
      rw [View.set_slice_whole, Rect.mem_set_unit]
      intro a
      have hoff : ∀ a : Fin main_v29.ty.shape.rank, win0_8.index tLast a * win0_8.size a = 0 := by decide +kernel
      have hsz : ∀ a : Fin main_v29.ty.shape.rank, win0_8.xsize (grid0.coords tLast) a = 1 := by decide +kernel
      have hone : ∀ a : Fin main_v29.ty.shape.rank, main_v29.ty.shape.size a = 1 := by decide
      have hlt : (i a : Nat) < 1 := lt_of_lt_of_eq (i a).isLt (hone a)
      rw [hoff a, hsz a]
      omega⟩

/-- The host tail: the result array flattened and divided by the number of edges. -/
theorem tail_v31 (c : Dev nD) :
    Pipeline.afterTail₀ cfgs (dats m) 0 (V0 m) [hostOps1] c main_v31 = fun _ => lossOf m c := by
  unfold Pipeline.afterTail₀
  show StableHlo.after hostOps1 _ (Proc.devRef .tc main_v31) = _
  after_results
  have e : Pipeline.withArrays (cfgs 0).spec c (V0 m c) (fun w => (dats m 0 c).arrAt w (cfgs 0).N)
      (Proc.devRef .tc main_v29) = result m c :=
    (Pipeline.withArrays_arr spec0 launch0.win.arr_inj c _ _ 8).trans (final_o m c)
  rw [e]
  funext y
  show Ideal.div (total m c) nEdges = lossOf m c
  rfl

/-- Every weakly fair execution terminates with the result at the tiled loss and the arguments unchanged. -/
theorem run : θ_run defs (onTc (τ := τ) (main (F := Ideal))) ⟨m, fun _ => 0, ρ⟩ (fun r => ∀ c : Dev nD,
      r.2.mem ((c.tc : Thread nD τ).loc main_v31) = (fun _ => lossOf m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c =>
    ⟨((h c).2 main_v31 (Pipeline.mem_restRefs_of main_v31 (by decide) (by decide))).trans (tail_v31 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Val

end
-- ==== Proof.RTerm.lean ====
/-
  The reference program's result as one pure term of its argument arrays: the operations of its straight line composed,
  the outlined relu, softplus and log-sigmoid written out where they are called.
-/
import proofs.«145661_j4123168604526_1_alg».proof.Proof.Gen.ReferenceIdeal
import proofs.«145661_j4123168604526_1_alg».proof.Proof.SpecGather

noncomputable section

namespace Cert.ReferenceIdeal.Val

open Idealize.ShloMosaic Idealize.ShloMosaic.ValueIdx
open Cert.ReferenceIdeal LinkLoss

variable {F : FTy → Type} [FloatOps F]

/-- The zero vector the outlined functions compare and subtract with. -/
abbrev zeros : FVec F S600000 .f32 := broadcastInDim S600000 ![] Facts₀.bcast_S_S600000 (constant S_ .f32 0x00000000#32)

/-- The outlined softplus, operation by operation. -/
abbrev softplusT (y : FVec F S600000 .f32) : FVec F S600000 .f32 :=
  select (cmpf .une (subf y zeros) (subf y zeros)) (addf y zeros)
    (addf (maximumf y zeros) (Host.log1p (Host.exp (Host.negf (Host.absf (subf y zeros))))))

/-- The outlined log-sigmoid: the negated softplus of the negated argument. -/
abbrev logSigT (z : FVec F S600000 .f32) : FVec F S600000 .f32 := Host.negf (softplusT (Host.negf z))

/-- The logits: the concatenated gathered rows times the transposed W1, plus b1, relu, times the transposed W2, plus
    b2, flattened. -/
abbrev logitsT (xu xv : FVec F S600000x128 .f32) (W1 : FVec F S128x256 .f32) (b1 : FVec F S128 .f32)
    (W2 : FVec F S1x128 .f32) (b2 : FVec F S1 .f32) : FVec F S600000 .f32 :=
  shapeCast S600000
    (addf
      (Host.dotGeneral dot_S600000x128_S128x1_S600000x1_1_0_0_1_n_n none
        (maximumf
          (addf
            (Host.dotGeneral dot_S600000x256_S256x128_S600000x128_1_0_0_1_n_n none
              (concatenate S600000x256 1 [⟨S600000x128, xu⟩, ⟨S600000x128, xv⟩]
                Facts₀.concatenates_S600000x128_S600000x128_S600000x256_d1)
              (transpose S256x128 [1, 0] W1 Facts₀.transposes_S128x256_S256x128_1_0))
            (broadcastInDim S600000x128 ![0, 1] Facts₀.bcast_S1x128_S600000x128_0_1
              (broadcastInDim S1x128 ![1] Facts₀.bcast_S128_S1x128_1 b1)))
          (broadcastInDim S600000x128 ![] Facts₀.bcast_S_S600000x128 (constant S_ .f32 0x00000000#32)))
        (transpose S128x1 [1, 0] W2 Facts₀.transposes_S1x128_S128x1_1_0))
      (broadcastInDim S600000x1 ![0, 1] Facts₀.bcast_S1x1_S600000x1_0_1
        (broadcastInDim S1x1 ![1] Facts₀.bcast_S1_S1x1_1 b2)))
    Facts₀.shapeCasts_S600000x1_S600000

/-- The result from the logits and the labels. -/
abbrev lossT (z lab : FVec F S600000 .f32) : FVec F S_ .f32 :=
  Host.negf
    (Host.divf
      (Host.reduceAdd
        (addf (mulf lab (logSigT z))
          (mulf (subf (broadcastInDim S600000 ![] Facts₀.bcast_S_S600000 (constant S_ .f32 0x3F800000#32)) lab)
            (logSigT (Host.negf z))))
        (constant S_ .f32 0x00000000#32) Facts₀.reducesTo_S600000_S_d0 Facts₀.h_S_)
      (constant S_ .f32 0x49127C00#32))

/-- The whole result, the gathers written through `gatherRows`. -/
abbrev outT (x : FVec F S50000x128 .f32) (W1 : FVec F S128x256 .f32) (b1 : FVec F S128 .f32)
    (W2 : FVec F S1x128 .f32) (b2 : FVec F S1 .f32) (lab : FVec F S600000 .f32) (pairs : IVec S2x600000 32) :
    FVec F S_ .f32 :=
  lossT
    (logitsT
      (gatherRows x pairs ![0, 0] Facts₀.slices_S2x600000_S1x600000_0_0 Facts₀.shapeCasts_S1x600000_S600000
        Facts₀.bcast_S_S600000 Facts₀.bcast_S600000_S600000x1_0
        Facts₀.gather_S50000x128_S600000x1_S600000x128_1_0_n_n_0_1_1128_wf)
      (gatherRows x pairs ![1, 0] Facts₀.slices_S2x600000_S1x600000_1_0 Facts₀.shapeCasts_S1x600000_S600000
        Facts₀.bcast_S_S600000 Facts₀.bcast_S600000_S600000x1_0
        Facts₀.gather_S50000x128_S600000x1_S600000x128_1_0_n_n_0_1_1128_wf)
      W1 b1 W2 b2)
    lab

end Cert.ReferenceIdeal.Val

end
-- ==== Proof.RRun.lean ====
/-
  The reference program's run: its @main is one straight line of host operations (the outlined relu, softplus and
  log-sigmoid written out at their calls), so every weakly fair execution terminates with each buffer at the operations'
  fold over the launch contents; the result buffer's fold is the composed term `outT` of the arguments.
-/
import proofs.«145661_j4123168604526_1_alg».proof.Proof.RTerm
import Idealize.ShloMosaic.Lib.StableHlo.Run
import Idealize.ShloMosaic.Lib.Tactic

noncomputable section

namespace Cert.ReferenceIdeal.Val

open Idealize.ShloMosaic Idealize.ShloMosaic.TcCoe Idealize.SL.Sem Idealize.ShloMosaic.StableHlo
open Cert.ReferenceIdeal Cert.ReferenceIdeal.Gen LinkLoss

variable {F : FTy → Type} [FloatOps F]

/-- The program's eighty-one operations in order: the twenty-eight up to the hidden layer's sum, the relu's three, the six
    up to the logits, the log-sigmoid's sixteen (its negation, the softplus's fourteen, its negation), the five between the
    two calls, the log-sigmoid's sixteen again on the negated logits, and the seven that combine, sum, divide and negate. -/
abbrev ops : List (HloOp τ sig (Elt F)) :=
  [ unary main_arg6 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg6 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v3 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v13 (broadcastInDim S600000 ![] bcast_S_S600000 : (⟨S_, .i32⟩ : BufTy).Contents (Elt F) → (⟨S600000, .i32⟩ : BufTy).Contents (Elt F)),
    binary main_v3 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v10 main_v17 main_v18 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    unary main_arg1 main_v19 ((transpose S256x128 [1, 0] · transposes_S128x256_S256x128_1_0) : (⟨S128x256, .f32⟩ : BufTy).Contents (Elt F) → (⟨S256x128, .f32⟩ : BufTy).Contents (Elt F)),
    binary main_v18 main_v19 main_v20 ((fun l r => Host.dotGeneral dot_S600000x256_S256x128_S600000x128_1_0_0_1_n_n none l r) : (⟨S600000x256, .f32⟩ : BufTy).Contents (Elt F) → (⟨S256x128, .f32⟩ : BufTy).Contents (Elt F) → (⟨S600000x128, .f32⟩ : BufTy).Contents (Elt F)),
    unary main_arg2 main_v21 (broadcastInDim S1x128 ![1] bcast_S128_S1x128_1 : (⟨S128, .f32⟩ : BufTy).Contents (Elt F) → (⟨S1x128, .f32⟩ : BufTy).Contents (Elt F)),
    unary main_v21 main_v22 (broadcastInDim S600000x128 ![0, 1] bcast_S1x128_S600000x128_0_1 : (⟨S1x128, .f32⟩ : BufTy).Contents (Elt F) → (⟨S600000x128, .f32⟩ : BufTy).Contents (Elt F)),
    binary main_v20 main_v22 main_v23 (addf : (⟨S600000x128, .f32⟩ : BufTy).Contents (Elt F) → (⟨S600000x128, .f32⟩ : BufTy).Contents (Elt F) → (⟨S600000x128, .f32⟩ : BufTy).Contents (Elt F)),
    TRef.nullary main_call0.cst (constant S_ .f32 0x00000000#32),
    TRef.unary main_call0.cst main_call0.v0 (broadcastInDim S600000x128 ![] bcast_S_S600000x128),
    TRef.binary (.of main_v23 : TRef sig ⟨S600000x128, .f32⟩) main_call0.v0 main_call0.v1 maximumf,
    unary main_arg3 main_v25 ((transpose S128x1 [1, 0] · transposes_S1x128_S128x1_1_0) : (⟨S1x128, .f32⟩ : BufTy).Contents (Elt F) → (⟨S128x1, .f32⟩ : BufTy).Contents (Elt F)),
    binary main_v24 main_v25 main_v26 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    unary main_arg4 main_v27 (broadcastInDim S1x1 ![1] bcast_S1_S1x1_1 : (⟨S1, .f32⟩ : BufTy).Contents (Elt F) → (⟨S1x1, .f32⟩ : BufTy).Contents (Elt F)),
    unary main_v27 main_v28 (broadcastInDim S600000x1 ![0, 1] bcast_S1x1_S600000x1_0_1 : (⟨S1x1, .f32⟩ : BufTy).Contents (Elt F) → (⟨S600000x1, .f32⟩ : BufTy).Contents (Elt F)),
    binary main_v26 main_v28 main_v29 (addf : (⟨S600000x1, .f32⟩ : BufTy).Contents (Elt F) → (⟨S600000x1, .f32⟩ : BufTy).Contents (Elt F) → (⟨S600000x1, .f32⟩ : BufTy).Contents (Elt F)),
    reshape main_v29 main_v30 rfl shapeCasts_S600000x1_S600000,
    TRef.unary (.of main_v30 : TRef sig ⟨S600000, .f32⟩) main_call1.v0 Host.negf,
    TRef.nullary main_call1.call0.cst (constant S_ .f32 0x00000000#32),
    TRef.unary main_call1.call0.cst main_call1.call0.v0 (broadcastInDim S600000 ![] bcast_S_S600000),
    TRef.binary main_call1.v0 main_call1.call0.v0 main_call1.call0.v1 maximumf,
    TRef.unary main_call1.call0.cst main_call1.call0.v2 (broadcastInDim S600000 ![] bcast_S_S600000),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S600000 ![] bcast_S_S600000),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_arg5 main_v31 main_v32 (mulf : (⟨S600000, .f32⟩ : BufTy).Contents (Elt F) → (⟨S600000, .f32⟩ : BufTy).Contents (Elt F) → (⟨S600000, .f32⟩ : BufTy).Contents (Elt F)),
    nullary main_cst (constant S_ .f32 0x3F800000#32),
    unary main_cst main_v33 (broadcastInDim S600000 ![] bcast_S_S600000 : (⟨S_, .f32⟩ : BufTy).Contents (Elt F) → (⟨S600000, .f32⟩ : BufTy).Contents (Elt F)),
    binary main_v33 main_arg5 main_v34 (subf : (⟨S600000, .f32⟩ : BufTy).Contents (Elt F) → (⟨S600000, .f32⟩ : BufTy).Contents (Elt F) → (⟨S600000, .f32⟩ : BufTy).Contents (Elt F)),
    unary main_v30 main_v35 (Host.negf : (⟨S600000, .f32⟩ : BufTy).Contents (Elt F) → (⟨S600000, .f32⟩ : BufTy).Contents (Elt F)),
    TRef.unary (.of main_v35 : TRef sig ⟨S600000, .f32⟩) main_call2.v0 Host.negf,
    TRef.nullary main_call2.call0.cst (constant S_ .f32 0x00000000#32),
    TRef.unary main_call2.call0.cst main_call2.call0.v0 (broadcastInDim S600000 ![] bcast_S_S600000),
    TRef.binary main_call2.v0 main_call2.call0.v0 main_call2.call0.v1 maximumf,
    TRef.unary main_call2.call0.cst main_call2.call0.v2 (broadcastInDim S600000 ![] bcast_S_S600000),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S600000 ![] bcast_S_S600000),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    binary main_v34 main_v36 main_v37 (mulf : (⟨S600000, .f32⟩ : BufTy).Contents (Elt F) → (⟨S600000, .f32⟩ : BufTy).Contents (Elt F) → (⟨S600000, .f32⟩ : BufTy).Contents (Elt F)),
    binary main_v32 main_v37 main_v38 (addf : (⟨S600000, .f32⟩ : BufTy).Contents (Elt F) → (⟨S600000, .f32⟩ : BufTy).Contents (Elt F) → (⟨S600000, .f32⟩ : BufTy).Contents (Elt F)),
    nullary main_cst_3 (constant S_ .f32 0x00000000#32),
    binary main_v38 main_cst_3 main_v39 ((fun x v => Host.reduceAdd x v reducesTo_S600000_S_d0 h_S_) : (⟨S600000, .f32⟩ : BufTy).Contents (Elt F) → (⟨S_, .f32⟩ : BufTy).Contents (Elt F) → (⟨S_, .f32⟩ : BufTy).Contents (Elt F)),
    nullary main_cst_4 (constant S_ .f32 0x49127C00#32),
    binary main_v39 main_cst_4 main_v40 (Host.divf : (⟨S_, .f32⟩ : BufTy).Contents (Elt F) → (⟨S_, .f32⟩ : BufTy).Contents (Elt F) → (⟨S_, .f32⟩ : BufTy).Contents (Elt F)),
    unary main_v40 main_v41 (Host.negf : (⟨S_, .f32⟩ : BufTy).Contents (Elt F) → (⟨S_, .f32⟩ : BufTy).Contents (Elt F)) ]

-- the line nests one level per step, eighty-one levels in all
set_option maxRecDepth 4096 in
set_option maxHeartbeats 4000000 in
/-- @main, with each outlined function's body put where it is called, is the eighty-one operations run in order: sequencing
    is associative, and a call that has returned adds no step. -/
theorem main_eq (c : Dev nD) : main (F := F) c = seq ops := by
  simp only [main, fn_relu.body, fn_log_sigmoid.body, fn_softplus.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation reads and writes only the device's own buffers. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    reshape_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., binary_bufs_sub ..,
    nullary_bufs_sub .., unary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., binary_bufs_sub .., binary_bufs_sub .., nullary_bufs_sub .., binary_bufs_sub ..,
    nullary_bufs_sub .., binary_bufs_sub .., unary_bufs_sub ..⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result, stage by stage

The line is cut where its mathematics is: the twenty-two operations that gather the two rows, the fifteen that make the logits
of them, and the forty-four that make the loss of the logits. Each stage is read over an arbitrary valuation, so the stage
before it is one symbol in it. -/

/-- Two lines run one after the other fold as the second over the first's fold. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A line folds as its tail past `n` over its first `n` operations' fold. -/
theorem after_split (n : Nat) (l : List (HloOp τ sig (Elt F))) (V : Valuation τ sig (Elt F)) :
    after l V = after (l.drop n) (after (l.take n) V) := by
  rw [← after_append, List.take_append_drop]

/-- A stage's fold at a literal reference: the stage's operations listed, each operation's result at its own buffer its
    function's value and at any other buffer what was there. -/
local macro "stage_results" : tactic =>
  `(tactic| simp (disch := decide) only [List.take_succ_cons, List.take_zero, List.drop_succ_cons, List.drop_zero, after_cons, after_nil,
      nullary_result', unary_result', binary_result', ternary_result', reshape_result',
      nullary_result_ne', unary_result_ne', binary_result_ne', ternary_result_ne', reshape_result_ne'])

attribute [local irreducible] Host.gather in
set_option maxRecDepth 8192 in
/-- The first gathered rows: the first row of the pairs, wrapped, as start indices into the table. -/
theorem gathers_v10 (W : Valuation τ sig (Elt F)) :
    after ((ops (F := F)).take 22) W (main_v10 : DevRef τ sig)
      = gatherRows (W (main_arg0 : DevRef τ sig)) (W (main_arg6 : DevRef τ sig)) ![0, 0] slices_S2x600000_S1x600000_0_0
          shapeCasts_S1x600000_S600000 bcast_S_S600000 bcast_S600000_S600000x1_0
          gather_S50000x128_S600000x1_S600000x128_1_0_n_n_0_1_1128_wf := by
  stage_results
  rfl

attribute [local irreducible] Host.gather in
set_option maxRecDepth 8192 in
/-- The second gathered rows: the second row of the pairs. -/
theorem gathers_v17 (W : Valuation τ sig (Elt F)) :
    after ((ops (F := F)).take 22) W (main_v17 : DevRef τ sig)
      = gatherRows (W (main_arg0 : DevRef τ sig)) (W (main_arg6 : DevRef τ sig)) ![1, 0] slices_S2x600000_S1x600000_1_0
          shapeCasts_S1x600000_S600000 bcast_S_S600000 bcast_S600000_S600000x1_0
          gather_S50000x128_S600000x1_S600000x128_1_0_n_n_0_1_1128_wf := by
  stage_results
  rfl

theorem gathers_arg1 (W : Valuation τ sig (Elt F)) :
    after ((ops (F := F)).take 22) W (main_arg1 : DevRef τ sig) = W (main_arg1 : DevRef τ sig) := by
  stage_results

theorem gathers_arg2 (W : Valuation τ sig (Elt F)) :
    after ((ops (F := F)).take 22) W (main_arg2 : DevRef τ sig) = W (main_arg2 : DevRef τ sig) := by
  stage_results

theorem gathers_arg3 (W : Valuation τ sig (Elt F)) :
    after ((ops (F := F)).take 22) W (main_arg3 : DevRef τ sig) = W (main_arg3 : DevRef τ sig) := by
  stage_results

theorem gathers_arg4 (W : Valuation τ sig (Elt F)) :
    after ((ops (F := F)).take 22) W (main_arg4 : DevRef τ sig) = W (main_arg4 : DevRef τ sig) := by
  stage_results

theorem gathers_arg5 (W : Valuation τ sig (Elt F)) :
    after ((ops (F := F)).take 22) W (main_arg5 : DevRef τ sig) = W (main_arg5 : DevRef τ sig) := by
  stage_results

set_option maxRecDepth 8192 in
/-- The logits of the gathered rows. -/
theorem logits_v30 (W : Valuation τ sig (Elt F)) :
    after (((ops (F := F)).drop 22).take 15) W (main_v30 : DevRef τ sig)
      = logitsT (W (main_v10 : DevRef τ sig)) (W (main_v17 : DevRef τ sig)) (W (main_arg1 : DevRef τ sig))
          (W (main_arg2 : DevRef τ sig)) (W (main_arg3 : DevRef τ sig)) (W (main_arg4 : DevRef τ sig)) := by
  stage_results
  rfl

theorem logits_arg5 (W : Valuation τ sig (Elt F)) :
    after (((ops (F := F)).drop 22).take 15) W (main_arg5 : DevRef τ sig) = W (main_arg5 : DevRef τ sig) := by
  stage_results

set_option maxRecDepth 8192 in
/-- The loss of the logits and the labels. -/
theorem loss_v41 (W : Valuation τ sig (Elt F)) :
    after (((ops (F := F)).drop 22).drop 15) W (main_v41 : DevRef τ sig)
      = lossT (W (main_v30 : DevRef τ sig)) (W (main_arg5 : DevRef τ sig)) := by
  stage_results
  rfl

/-- The fold at the result buffer is the composed term: the three stages in turn. -/
theorem out_eq (V : Valuation τ sig (Elt F)) :
    after ops V (main_v41 : DevRef τ sig)
      = outT (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [after_split 22 ops V, after_split 15 (ops.drop 22) _, loss_v41, logits_v30, logits_arg5, gathers_v10, gathers_v17,
    gathers_arg1, gathers_arg2, gathers_arg3, gathers_arg4, gathers_arg5]

/-! No operation writes an argument: the fold leaves each where it was. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

/-- Every weakly fair execution terminates with the result at the composed term of the launch contents of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v41)
          = outT (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => ⟨(h c main_v41).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _)⟩)
    (run_main m ρ)

end Cert.ReferenceIdeal.Val

end
-- ==== Proof.RRead.lean ====
/-
  The reference's composed term read at the extended reals: its one entry is the loss in the plain arrangement, of the
  gathered rows and the other arguments.
-/
import proofs.«145661_j4123168604526_1_alg».proof.Proof.RTerm
import proofs.«145661_j4123168604526_1_alg».proof.Proof.LibRowDims
import Idealize.ShloMosaic.Lib.Pipeline.Value
import Idealize.ShloMosaic.Lib.ValueLayout
import Idealize.ShloMosaic.Lib.ValueIdxRank1
import Idealize.ShloMosaic.PureOps.Ideal.Laws

noncomputable section

open scoped BigOperators

namespace Cert.ReferenceIdeal.Val

open Idealize.ShloMosaic Idealize.ShloMosaic.ValueIdx
open Cert.ReferenceIdeal LinkLoss

/-- The concatenated gathered rows at (e, k): the first array below column 128, the second from there on. -/
private theorem concat_apply (xu xv : Mat 600000 128)
    (h : Shape.Concatenates [S600000x128, S600000x128] S600000x256 1) (e : Fin 600000) (k : Fin 256) :
    concatenate S600000x256 1 [⟨S600000x128, xu⟩, ⟨S600000x128, xv⟩] h (ix2 e k) = feats xu xv e k := by
  unfold feats
  split
  · next hk =>
    exact concatenate_pair_apply_left (1 : Fin 2) xu xv h (ix2 e k) rfl (ix2 e ⟨k.val, hk⟩)
      (fun b => match b with | ⟨0, _⟩ => rfl | ⟨1, _⟩ => rfl)
  · next hk =>
    exact concatenate_pair_apply_right (1 : Fin 2) xu xv h (ix2 e k) rfl rfl
      (ix2 e ⟨k.val - 128, by have := k.isLt; omega⟩)
      (fun b hb => match b, hb with | ⟨0, _⟩, _ => rfl | ⟨1, _⟩, hb => absurd rfl hb)
      (by show (k.val - 128) + 128 = k.val; omega)

/-- A vector broadcast along the rows of a matrix, read at (e, j), is the vector at j. -/
private theorem bcast_row_apply (b1 : Vect 128) (h1 : S128.BroadcastsInDim S1x128 (![1] : Fin 1 → Fin S1x128.rank))
    (h2 : S1x128.BroadcastsInDim S600000x128 (![0, 1] : Fin 2 → Fin S600000x128.rank)) (e : Fin 600000) (j : Fin 128) :
    broadcastInDim S600000x128 ![0, 1] h2 (broadcastInDim S1x128 ![1] h1 b1) (ix2 e j) = b1 (ix1 j) := by
  refine (broadcastInDim_apply _ h2 _ (ix2 e j) (ix2 (0 : Fin 1) j)
    (fun a => match a with | ⟨0, _⟩ => rfl | ⟨1, _⟩ => rfl)).trans ?_
  exact broadcastInDim_apply _ h1 b1 (ix2 (0 : Fin 1) j) (ix1 j) (fun a => match a with | ⟨0, _⟩ => rfl)

/-- The one-entry vector broadcast to a column, read at (e, 0), is its entry. -/
private theorem bcast_one_apply (b2 : Vect 1) (h1 : S1.BroadcastsInDim S1x1 (![1] : Fin 1 → Fin S1x1.rank))
    (h2 : S1x1.BroadcastsInDim S600000x1 (![0, 1] : Fin 2 → Fin S600000x1.rank)) (e : Fin 600000) :
    broadcastInDim S600000x1 ![0, 1] h2 (broadcastInDim S1x1 ![1] h1 b2) (ix2 e (0 : Fin 1)) = b2 (ix1 0) := by
  refine (broadcastInDim_apply _ h2 _ (ix2 e (0 : Fin 1)) (ix2 (0 : Fin 1) (0 : Fin 1))
    (fun a => match a with | ⟨0, _⟩ => rfl | ⟨1, _⟩ => rfl)).trans ?_
  exact broadcastInDim_apply _ h1 b2 (ix2 (0 : Fin 1) (0 : Fin 1)) (ix1 0) (fun a => match a with | ⟨0, _⟩ => rfl)

/-- The zero word broadcast to any shape is 0 at every index. -/
private theorem bcast_zero_apply {t : Shape} (dims : Fin S_.rank → Fin t.rank) (h : S_.BroadcastsInDim t dims) (j : t.Idx) :
    broadcastInDim t dims h (constant (F := Ideal) S_ .f32 0x00000000#32) j = 0 := by
  refine (broadcastInDim_apply dims h _ j ix0 (fun a => a.elim0)).trans ?_
  rw [constant_apply, Ideal.ofBits_zero_f32]

/-- The first product's record is the plain contraction of a 600000 × 256 by a 256 × 128 matrix. -/
private theorem dot1_eq : dot_S600000x256_S256x128_S600000x128_1_0_0_1_n_n = DotDims.plain 600000 256 128 := rfl

/-- The second product's record is the plain contraction of a 600000 × 128 by a 128 × 1 matrix. -/
private theorem dot2_eq : dot_S600000x128_S128x1_S600000x1_1_0_0_1_n_n = DotDims.plain 600000 128 1 := rfl

/-- The hidden layer's term at (e, j) is the plain arrangement's hidden unit. -/
private theorem hidden_apply (xu xv : Mat 600000 128) (W1 : Mat 128 256) (b1 : Vect 128) (e : Fin 600000) (j : Fin 128) :
    (maximumf
      (addf
        (Host.dotGeneral (F := Ideal) (φ₁ := .f32) (φ₂ := .f32) dot_S600000x256_S256x128_S600000x128_1_0_0_1_n_n none
          (concatenate S600000x256 1 [⟨S600000x128, xu⟩, ⟨S600000x128, xv⟩]
            Facts₀.concatenates_S600000x128_S600000x128_S600000x256_d1)
          (transpose S256x128 [1, 0] W1 Facts₀.transposes_S128x256_S256x128_1_0))
        (broadcastInDim S600000x128 ![0, 1] Facts₀.bcast_S1x128_S600000x128_0_1
          (broadcastInDim S1x128 ![1] Facts₀.bcast_S128_S1x128_1 b1)))
      (broadcastInDim S600000x128 ![] Facts₀.bcast_S_S600000x128 (constant S_ .f32 0x00000000#32))) (ix2 e j)
      = hiddenR xu xv W1 b1 e j := by
  rw [maximumf_apply, addf_apply, bcast_zero_apply, bcast_row_apply]
  simp only [Host.dotGeneral]
  rw [dot1_eq, RowDims.dotGeneral_plain_apply]
  unfold hiddenR
  congr 2
  refine Finset.sum_congr rfl fun k _ => ?_
  rw [concat_apply, transpose_ix2_apply]

/-- The logits' term at edge `e` is the plain arrangement's logit. -/
theorem logitsT_apply (xu xv : Mat 600000 128) (W1 : Mat 128 256) (b1 : Vect 128) (W2 : Mat 1 128) (b2 : Vect 1)
    (e : Fin 600000) :
    logitsT (F := Ideal) xu xv W1 b1 W2 b2 (ix1 e) = logitR xu xv W1 b1 W2 b2 e := by
  unfold logitsT
  refine (shapeCast_apply _ Facts₀.shapeCasts_S600000x1_S600000 (ix1 e) (ix2 e (0 : Fin 1)) (by
    rw [Shape.rowMajor_val_two, Shape.rowMajor_val_one]
    show e.val * 1 + 0 = e.val
    omega)).trans ?_
  rw [addf_apply, bcast_one_apply]
  simp only [Host.dotGeneral]
  rw [dot2_eq, RowDims.dotGeneral_plain_apply]
  unfold logitR
  congr 1
  refine Finset.sum_congr rfl fun j _ => ?_
  rw [hidden_apply, transpose_ix2_apply]

/-- The host's negation at an index. -/
private theorem hostNegf_apply {s : Shape} (a : FVec Ideal s .f32) (i : s.Idx) : Host.negf a i = -(a i) := rfl

/-- The host's division at an index. -/
private theorem hostDivf_apply {s : Shape} (a b : FVec Ideal s .f32) (i : s.Idx) :
    Host.divf a b i = Ideal.div (a i) (b i) := rfl

/-- The host's absolute value at an index: the larger of the entry and its negation. -/
private theorem hostAbsf_apply {s : Shape} (a : FVec Ideal s .f32) (i : s.Idx) : Host.absf a i = max (a i) (-(a i)) := rfl

/-- The host's exponential and log1p at an index. -/
private theorem hostExp_apply {s : Shape} (a : FVec Ideal s .f32) (i : s.Idx) : Host.exp a i = Ideal.exp (a i) := rfl
private theorem hostLog1p_apply {s : Shape} (a : FVec Ideal s .f32) (i : s.Idx) :
    Host.log1p a i = Ideal.log1p (a i) := rfl

/-- No extended real differs from itself: the comparison's bit is 0. -/
private theorem cmp_une_self (a : EReal) : Ideal.cmp .une a a = 0#1 := by
  unfold Ideal.cmp
  simp

/-- The outlined softplus at an index: the select takes its third operand. -/
private theorem softplusT_apply (y : FVec Ideal S600000 .f32) (i : S600000.Idx) :
    softplusT y i = softplusR (y i) := by
  unfold softplusT
  rw [select_apply, cmpf_apply, Ideal.cmpf_def, cmp_une_self, select_zero, addf_apply, maximumf_apply,
    hostLog1p_apply, hostExp_apply, hostNegf_apply, hostAbsf_apply, subf_apply]
  unfold zeros
  rw [bcast_zero_apply]
  rfl

/-- The outlined log-sigmoid at an index. -/
private theorem logSigT_apply (z : FVec Ideal S600000 .f32) (i : S600000.Idx) : logSigT z i = logSigR (z i) := by
  unfold logSigT
  rw [hostNegf_apply, softplusT_apply, hostNegf_apply]
  rfl

/-- One edge's term at an index. -/
private theorem edgeT_apply (z lab : FVec Ideal S600000 .f32) (i : S600000.Idx) :
    (addf (mulf lab (logSigT z))
      (mulf (subf (broadcastInDim S600000 ![] Facts₀.bcast_S_S600000 (constant S_ .f32 0x3F800000#32)) lab)
        (logSigT (Host.negf z)))) i = edgeR (z i) (lab i) := by
  rw [addf_apply, mulf_apply, mulf_apply, subf_apply, logSigT_apply, logSigT_apply, hostNegf_apply]
  rw [broadcastInDim_apply _ Facts₀.bcast_S_S600000 _ i ix0 (fun a => a.elim0), constant_apply]
  rfl

/-- The result's term from logits `z` is the plain arrangement's loss over them. -/
theorem lossT_apply (z lab : Vect 600000) (y : S_.Idx) :
    lossT (F := Ideal) z lab y
      = -(Ideal.div (0 + ∑ e : Fin 600000, edgeR (z (ix1 e)) (lab (ix1 e))) nEdges) := by
  unfold lossT
  rw [hostNegf_apply, hostDivf_apply, constant_apply]
  unfold Host.reduceAdd
  rw [Ideal.hostReduceAdd_def, Ideal.hostReduceAdd_total _ (fun b => b.elim0), constant_apply, Ideal.ofBits_zero_f32]
  -- the sum over the rank-1 index set is the sum over its one coordinate
  rw [← Equiv.sum_comp (idxEquiv1 (n := 600000)).symm]
  refine congrArg (fun s : EReal => -(Ideal.div (0 + s) nEdges)) ?_
  refine Finset.sum_congr rfl fun e _ => ?_
  exact edgeT_apply z lab (ix1 e)

/-- The whole term is the plain arrangement's loss. -/
theorem outT_eq (x : Mat 50000 128) (W1 : Mat 128 256) (b1 : Vect 128) (W2 : Mat 1 128) (b2 : Vect 1)
    (lab : Vect 600000) (pairs : IVec SPairs 32) :
    outT (F := Ideal) x W1 b1 W2 b2 lab pairs
      = fun _ => lossR
          (gatherRows x pairs ![0, 0] Facts₀.slices_S2x600000_S1x600000_0_0 Facts₀.shapeCasts_S1x600000_S600000
            Facts₀.bcast_S_S600000 Facts₀.bcast_S600000_S600000x1_0
            Facts₀.gather_S50000x128_S600000x1_S600000x128_1_0_n_n_0_1_1128_wf)
          (gatherRows x pairs ![1, 0] Facts₀.slices_S2x600000_S1x600000_1_0 Facts₀.shapeCasts_S1x600000_S600000
            Facts₀.bcast_S_S600000 Facts₀.bcast_S600000_S600000x1_0
            Facts₀.gather_S50000x128_S600000x1_S600000x128_1_0_n_n_0_1_1128_wf)
          W1 b1 W2 b2 lab := by
  funext y
  unfold outT
  rw [lossT_apply]
  unfold lossR
  simp only [logitsT_apply]

end Cert.ReferenceIdeal.Val

end
-- ==== Proof.Algebra.lean ====
/-
  The two arrangements of the loss agree when every entry is a real number.
  The logits agree on all extended reals: the 256-term product of the concatenated row is the sum of the two 128-term
  halves. Then every logit is a real number, each edge's two log-sigmoid forms agree
  (−(max (−z) 0 + t) = min z 0 − t), the edge terms are real, and negating each term before a finite sum, dividing by
  the number of edges, is dividing the sum and negating last.
-/
import proofs.«145661_j4123168604526_1_alg».proof.Proof.Spec

noncomputable section

open scoped BigOperators

namespace LinkLoss

open Idealize.ShloMosaic Idealize.ShloMosaic.ValueIdx

/-! ## The logits agree on all extended reals -/

section Logit
variable (xu xv : Mat 600000 128) (W1 : Mat 128 256) (b1 : Vect 128) (W2 : Mat 1 128) (b2 : Vect 1)

/-- The first 128 entries of the concatenated row are the first feature row. -/
private theorem feats_castAdd (e : Fin 600000) (k : Fin 128) :
    feats xu xv e (Fin.castAdd 128 k) = xu (ix2 e k) := by
  unfold feats
  rw [dif_pos (show (Fin.castAdd 128 k).val < 128 from k.isLt)]
  rfl

/-- The last 128 entries of the concatenated row are the second feature row. -/
private theorem feats_natAdd (e : Fin 600000) (k : Fin 128) :
    feats xu xv e (Fin.natAdd 128 k) = xv (ix2 e k) := by
  unfold feats
  have h : ¬ (Fin.natAdd 128 k).val < 128 := by simp [Fin.coe_natAdd]
  rw [dif_neg h]
  exact congrArg (fun q => xv (ix2 e q)) (Fin.ext (by simp [Fin.coe_natAdd]))

/-- The 256-term product of the concatenated row is the sum of the two 128-term halves. -/
private theorem hiddenK_eq_hiddenR (e : Fin 600000) (j : Fin 128) :
    hiddenK xu xv W1 b1 e j = hiddenR xu xv W1 b1 e j := by
  unfold hiddenK hiddenR
  have h := Fin.sum_univ_add (a := 128) (b := 128) (fun k : Fin (128 + 128) => feats xu xv e k * W1 (ix2 j k))
  simp only [feats_castAdd, feats_natAdd] at h
  rw [← h]

private theorem logitK_eq_logitR (e : Fin 600000) :
    logitK xu xv W1 b1 W2 b2 e = logitR xu xv W1 b1 W2 b2 e := by
  unfold logitK logitR
  simp only [hiddenK_eq_hiddenR]

end Logit

/-! ## Real numbers inside the extended reals -/

private theorem IsFinite.coe (r : ℝ) : IsFinite (r : EReal) := ⟨EReal.coe_ne_bot r, EReal.coe_ne_top r⟩

private theorem IsFinite.exists {a : EReal} (h : IsFinite a) : ∃ r : ℝ, a = (r : EReal) :=
  ⟨a.toReal, (EReal.coe_toReal h.2 h.1).symm⟩

private theorem IsFinite.add {a b : EReal} (ha : IsFinite a) (hb : IsFinite b) : IsFinite (a + b) := by
  obtain ⟨x, rfl⟩ := ha.exists
  obtain ⟨y, rfl⟩ := hb.exists
  rw [← EReal.coe_add]
  exact IsFinite.coe _

private theorem IsFinite.mul {a b : EReal} (ha : IsFinite a) (hb : IsFinite b) : IsFinite (a * b) := by
  obtain ⟨x, rfl⟩ := ha.exists
  obtain ⟨y, rfl⟩ := hb.exists
  rw [← EReal.coe_mul]
  exact IsFinite.coe _

private theorem IsFinite.max_zero {a : EReal} (ha : IsFinite a) : IsFinite (max a 0) := by
  rcases le_total a 0 with h | h
  · rw [max_eq_right h, ← EReal.coe_zero]
    exact IsFinite.coe 0
  · rw [max_eq_left h]
    exact ha

private theorem IsFinite.sum {ι : Type} (s : Finset ι) (f : ι → EReal) (h : ∀ i, IsFinite (f i)) :
    IsFinite (∑ i ∈ s, f i) := by
  classical
  induction s using Finset.induction_on with
  | empty =>
    rw [Finset.sum_empty, ← EReal.coe_zero]
    exact IsFinite.coe 0
  | insert a s ha ih =>
    rw [Finset.sum_insert ha]
    exact (h a).add ih

/-- The coercion of the reals commutes with finite sums. -/
private theorem coe_sum {ι : Type} (s : Finset ι) (f : ι → ℝ) :
    (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

private theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

private theorem coe_min (x y : ℝ) : ((min x y : ℝ) : EReal) = min (x : EReal) (y : EReal) := by
  rcases le_total x y with h | h
  · rw [min_eq_left h, min_eq_left (EReal.coe_le_coe_iff.mpr h)]
  · rw [min_eq_right h, min_eq_right (EReal.coe_le_coe_iff.mpr h)]

/-! ## Every logit is a real number -/

section LogitReal
variable (xu xv : Mat 600000 128) (W1 : Mat 128 256) (b1 : Vect 128) (W2 : Mat 1 128) (b2 : Vect 1)

private theorem logitR_isFinite (hxu : ∀ i, IsFinite (xu i)) (hxv : ∀ i, IsFinite (xv i))
    (hW1 : ∀ i, IsFinite (W1 i)) (hb1 : ∀ i, IsFinite (b1 i)) (hW2 : ∀ i, IsFinite (W2 i))
    (hb2 : ∀ i, IsFinite (b2 i)) (e : Fin 600000) : IsFinite (logitR xu xv W1 b1 W2 b2 e) := by
  have hfeats : ∀ k, IsFinite (feats xu xv e k) := by
    intro k
    unfold feats
    split
    · exact hxu _
    · exact hxv _
  have hhid : ∀ j, IsFinite (hiddenR xu xv W1 b1 e j) := by
    intro j
    unfold hiddenR
    exact ((IsFinite.sum _ _ (fun k => (hfeats k).mul (hW1 _))).add (hb1 _)).max_zero
  unfold logitR
  exact (IsFinite.sum _ _ (fun j => (hhid j).mul (hW2 _))).add (hb2 _)

end LogitReal

/-! ## One edge's term at a real logit -/

private theorem log1p_exp_coe (r : ℝ) :
    Ideal.log1p (Ideal.exp (r : EReal)) = ((Real.log (1 + Real.exp r) : ℝ) : EReal) := by
  unfold Ideal.log1p
  have hpos : ¬ (1 + Real.exp r ≤ 0) := not_le.mpr (by positivity)
  rw [Ideal.exp_coe, ← EReal.coe_one, ← EReal.coe_add, Ideal.log_coe, if_neg hpos]

/-- log (1 + exp (0 − |z|)) as a real number. -/
private def tail (z : ℝ) : ℝ := Real.log (1 + Real.exp (0 - max z (-z)))

private theorem tail_neg (z : ℝ) : tail (-z) = tail z := by
  unfold tail
  rw [neg_neg, max_comm]

private theorem tailK_coe (z : ℝ) : tailK (z : EReal) = ((tail z : ℝ) : EReal) := by
  unfold tailK tail
  rw [← EReal.coe_neg, ← coe_max, ← EReal.coe_zero, ← EReal.coe_sub, log1p_exp_coe]

private theorem softplusR_coe (y : ℝ) :
    softplusR (y : EReal)
      = ((max y 0 + Real.log (1 + Real.exp (-(max (y - 0) (-(y - 0))))) : ℝ) : EReal) := by
  unfold softplusR
  simp only [← EReal.coe_zero, ← EReal.coe_sub, ← EReal.coe_neg, ← coe_max, log1p_exp_coe, ← EReal.coe_add]

/-- The plain form of log σ(z) is the tiled one: −(max (−z) 0 + t) = min z 0 − t. -/
private theorem logSigR_coe (z : ℝ) : logSigR (z : EReal) = ((min z 0 - tail z : ℝ) : EReal) := by
  unfold logSigR
  rw [← EReal.coe_neg, softplusR_coe, ← EReal.coe_neg]
  congr 1
  unfold tail
  have h1 : max (-z - 0) (-(-z - 0)) = max z (-z) := by rw [sub_zero, neg_neg, max_comm]
  have h2 : max (-z) 0 = -(min z 0) := by rw [← max_neg_neg, neg_zero]
  rw [h1, h2, zero_sub]
  ring

/-- One edge's term as a real number, before the negation; o is the real number the word of 1.0 denotes. -/
private def term (o z l : ℝ) : ℝ := l * (min z 0 - tail z) + (o - l) * (min (-z) 0 - tail z)

private theorem edgeR_coe (o : ℝ) (ho : one = (o : EReal)) (z l : ℝ) :
    edgeR (z : EReal) (l : EReal) = ((term o z l : ℝ) : EReal) := by
  unfold edgeR term
  rw [ho, ← EReal.coe_neg, logSigR_coe, logSigR_coe, tail_neg, ← EReal.coe_sub, ← EReal.coe_mul, ← EReal.coe_mul,
    ← EReal.coe_add]

private theorem edgeK_coe (o : ℝ) (ho : one = (o : EReal)) (z l : ℝ) :
    edgeK (z : EReal) (l : EReal) = ((-(term o z l) : ℝ) : EReal) := by
  unfold edgeK term
  rw [ho, tailK_coe]
  simp only [← EReal.coe_zero, ← EReal.coe_sub, ← coe_min, ← EReal.coe_mul, ← EReal.coe_add]
  congr 1
  rw [zero_sub, zero_sub]

/-! ## The two words -/

private theorem one_eq : one = ((1 : ℝ) : EReal) := by
  have h : Ideal.ofBits .f32 0x3F800000#32 = (1 : EReal) := by
    simp [Ideal.ofBits, Ideal.ieee, -EReal.coe_mul]; norm_num
  rw [EReal.coe_one]
  exact h

private theorem nEdges_eq : nEdges = ((600000 : ℝ) : EReal) := by
  show Ideal.ofBits .f32 0x49127C00#32 = ((600000 : ℝ) : EReal)
  simp [Ideal.ofBits, Ideal.ieee, -EReal.coe_mul]; norm_num

/-! ## Summing tile by tile is summing over all edges -/

/-- Tile t and offset r name edge 2000 t + r; every edge is named once. -/
private def edgeEquiv : Fin 300 × Fin 2000 ≃ Fin 600000 where
  toFun p := edge p.1 p.2
  invFun e := (⟨e.val / 2000, by have := e.isLt; omega⟩, ⟨e.val % 2000, by omega⟩)
  left_inv p := by
    obtain ⟨t, r⟩ := p
    have ht := t.isLt
    have hr := r.isLt
    apply Prod.ext <;> apply Fin.ext <;> simp only [edge] <;> omega
  right_inv e := by
    have he := e.isLt
    apply Fin.ext
    simp only [edge]
    omega

private theorem sum_edge {M : Type} [AddCommMonoid M] (f : Fin 600000 → M) :
    (∑ t : Fin 300, ∑ r : Fin 2000, f (edge t r)) = ∑ e : Fin 600000, f e := by
  rw [← Fintype.sum_prod_type']
  exact Fintype.sum_equiv edgeEquiv _ _ (fun _ => rfl)

/-! ## The two losses -/

/-- The two arrangements compute the same loss on real inputs. -/
theorem lossK_eq_lossR (xu xv : Mat 600000 128) (W1 : Mat 128 256) (b1 : Vect 128) (W2 : Mat 1 128) (b2 : Vect 1)
    (lab : Vect 600000) (hxu : ∀ i, IsFinite (xu i)) (hxv : ∀ i, IsFinite (xv i)) (hW1 : ∀ i, IsFinite (W1 i))
    (hb1 : ∀ i, IsFinite (b1 i)) (hW2 : ∀ i, IsFinite (W2 i)) (hb2 : ∀ i, IsFinite (b2 i))
    (hlab : ∀ i, IsFinite (lab i)) :
    lossK xu xv W1 b1 W2 b2 lab = lossR xu xv W1 b1 W2 b2 lab := by
  -- every logit and every label is a real number
  have hZ := fun e => (logitR_isFinite xu xv W1 b1 W2 b2 hxu hxv hW1 hb1 hW2 hb2 e).exists
  choose Z hZ using hZ
  have hL := fun e : Fin 600000 => (hlab (ix1 e)).exists
  choose L hL using hL
  -- the tiles' sums add up to the negated sum of the real edge terms
  have hK : (∑ t : Fin 300, tileK xu xv W1 b1 W2 b2 lab t)
      = ((-(∑ e : Fin 600000, term 1 (Z e) (L e)) : ℝ) : EReal) := by
    unfold tileK
    refine (sum_edge (fun e => edgeK (logitK xu xv W1 b1 W2 b2 e) (lab (ix1 e)))).trans ?_
    rw [← Finset.sum_neg_distrib, ← coe_sum]
    refine Finset.sum_congr rfl (fun e _ => ?_)
    rw [logitK_eq_logitR, hZ e, hL e, edgeK_coe 1 one_eq]
  -- the plain sum is the sum of the real edge terms
  have hR : (∑ e : Fin 600000, edgeR (logitR xu xv W1 b1 W2 b2 e) (lab (ix1 e)))
      = ((∑ e : Fin 600000, term 1 (Z e) (L e) : ℝ) : EReal) := by
    rw [← coe_sum]
    refine Finset.sum_congr rfl (fun e _ => ?_)
    rw [hZ e, hL e, edgeR_coe 1 one_eq]
  -- dividing the negated sum by the number of edges is negating the quotient
  have h6 : (600000 : ℝ) ≠ 0 := by norm_num
  unfold lossK lossR
  rw [hK, hR, zero_add, nEdges_eq, Ideal.div_coe h6, Ideal.div_coe h6, ← EReal.coe_mul, ← EReal.coe_mul,
    ← EReal.coe_neg, neg_mul]

end LinkLoss

end
-- ==== Proof.Finite.lean ====
/-
  The precondition read: when the printed predicate is all ones, every entry of every float argument is a real number
  (its absolute value is below +∞, so it is neither infinity).
-/
import proofs.«145661_j4123168604526_1_alg».proof.Pre_finite_inputs
import proofs.«145661_j4123168604526_1_alg».proof.Proof.Gen.Pre_finite_inputs
import proofs.«145661_j4123168604526_1_alg».proof.Proof.Spec
import Idealize.ShloMosaic.Lib.ReduceAll

noncomputable section

namespace Cert.Pre_finite_inputs.Val

open Idealize.ShloMosaic Idealize.ShloMosaic.ValueIdx
open Cert.Pre_finite_inputs LinkLoss

/-- The rank-0 shape has one index. -/
private instance subsingleton_scalar_idx : Subsingleton S_.Idx := ⟨fun a b => funext fun d => d.elim0⟩

/-- The f32 word 0x7F800000 denotes +∞. -/
private theorem inf_word : Ideal.ofBits .f32 0x7F800000#32 = (⊤ : EReal) := by
  simp [Ideal.ofBits, Ideal.ieee]

/-- An extended real whose absolute value max a (−a) is below +∞ is a real number: a = ⊤ gives max ⊤ ⊥ = ⊤,
    and a = ⊥ gives −⊥ = ⊤, so again the maximum is ⊤. -/
private theorem isFinite_of_abs_lt_top (a : EReal) (h : max a (-a) < ⊤) : IsFinite a := by
  constructor
  · rintro rfl
    simp at h
  · rintro rfl
    simp at h

/-- One argument's test: if the reduction by "and" over all axes of the comparison |v| < +∞ (the +∞ word broadcast
    from a scalar) is 1, every entry of v is a real number. -/
private theorem all_finite {s : Shape} {axes : List (Fin s.rank)} (v : FVec Ideal s .f32)
    (hb : S_.BroadcastsInDim s (![] : Fin 0 → Fin s.rank)) (hr : s.ReducesTo axes S_) (h0 : 0 < S_.numel)
    (e : Host.reduce IntOp.andi
          (cmpf .olt (Host.absf v) (broadcastInDim s ![] hb (constant (F := Ideal) S_ .f32 0x7F800000#32)))
          (constantI S_ 1 1#1) hr h0 ix0 = 1#1) :
    ∀ i, IsFinite (v i) := by
  intro i
  have hi := Host.reduce_andi_all _ _ hr h0 ix0 e i
  rw [cmpf_apply, Ideal.cmpf_def] at hi
  simp only [broadcastInDim, constant_apply, inf_word, Host.absf, Ideal.hostAbsf_def, Ideal.absf_def, Ideal.cmp] at hi
  apply isFinite_of_abs_lt_top
  revert hi
  generalize max (v i) (-(v i)) = m
  intro hi
  by_contra hc
  simp [hc] at hi

/-- The predicate all ones means every float argument holds real numbers only. -/
theorem finite_of_pre (x : Mat 50000 128) (W1 : Mat 128 256) (b1 : Vect 128) (W2 : Mat 1 128) (b2 : Vect 1)
    (lab : Vect 600000) (pairs : IVec ⟨2, ![2, 600000]⟩ 32)
    (h : Cert.Pre_finite_inputs.fn (F := Ideal) x W1 b1 W2 b2 lab pairs = (fun _ => 1#1)) :
    (∀ i, IsFinite (x i)) ∧ (∀ i, IsFinite (W1 i)) ∧ (∀ i, IsFinite (b1 i)) ∧ (∀ i, IsFinite (W2 i))
      ∧ (∀ i, IsFinite (b2 i)) ∧ (∀ i, IsFinite (lab i)) := by
  have e := congrFun h ix0
  dsimp only [fn, fn_part1] at e
  simp only [andi, IntOp.andi_eq_one] at e
  obtain ⟨⟨⟨⟨⟨e0, e1⟩, e2⟩, e3⟩, e4⟩, e5⟩ := e
  exact ⟨all_finite x _ _ _ e0, all_finite W1 _ _ _ e1, all_finite b1 _ _ _ e2, all_finite W2 _ _ _ e3,
    all_finite b2 _ _ _ e4, all_finite lab _ _ _ e5⟩

end Cert.Pre_finite_inputs.Val

end
-- ==== Proof.lean ====
/-
  The certificate of the link-prediction loss kernel against its plain reference.

  Both programs gather the same two feature rows per edge from the node table (the same index arithmetic on the same
  pairs, so the gathered arrays are one term). The kernel program streams the 600000 edges in 300 tiles of 2000: per
  tile it forms the hidden layer from the two column halves of W1, the logit, the two log-sigmoid terms in their
  min form, negates each edge's term, sums the tile and adds it to a one-entry accumulator that the first tile resets;
  after the last tile the accumulator is divided by the number of edges. The reference forms the 256-term product of the
  concatenated rows, writes the log-sigmoids through softplus, sums all edges, divides and negates last.

  The kernel's value is read off its generated frame run (`KRun`: the accumulator after each tile is the sum of the tiles
  so far), the reference's off its straight line of host operations (`RRun`, `RRead`). Over the extended reals the two
  arrangements agree when every input entry is a real number (`Algebra`): the products split, every logit is then real,
  the log-sigmoid forms agree on reals, and a finite sum of real terms may be negated term by term. The precondition
  says exactly that every float input entry is real (`Finite`), and a gathered entry is a table entry.
-/
import proofs.«145661_j4123168604526_1_alg».proof.Defs
import proofs.«145661_j4123168604526_1_alg».proof.Proof.Gen.Kernel
import proofs.«145661_j4123168604526_1_alg».proof.Proof.Gen.Kernel.Frame
import proofs.«145661_j4123168604526_1_alg».proof.Proof.Gen.KernelIdeal
import proofs.«145661_j4123168604526_1_alg».proof.Proof.Gen.KernelIdeal.Frame
import proofs.«145661_j4123168604526_1_alg».proof.Proof.Gen.ReferenceIdeal
import proofs.«145661_j4123168604526_1_alg».proof.Proof.Gen.Pre_finite_inputs
import proofs.«145661_j4123168604526_1_alg».proof.Proof.KRun
import proofs.«145661_j4123168604526_1_alg».proof.Proof.RRun
import proofs.«145661_j4123168604526_1_alg».proof.Proof.RRead
import proofs.«145661_j4123168604526_1_alg».proof.Proof.Algebra
import proofs.«145661_j4123168604526_1_alg».proof.Proof.Finite
import Idealize.ShloMosaic.Adequacy
import Idealize.ShloMosaic.Init

noncomputable section

namespace Cert.Proof

open Idealize.ShloMosaic Idealize.SL.Sem LinkLoss

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Val.run (F := Ideal) m ρ)

/-- The ideal pass rewrote nothing. -/
theorem preserves : Cert.preserves_Kernel_KernelIdeal := trivial

/-- From memories that agree on the arguments both programs end with the same extended real: the kernel's tiled loss
    and the reference's plain loss of the same gathered rows, weights and labels, all real numbers by the precondition. -/
theorem algebraic : Cert.algebraic_KernelIdeal_ReferenceIdeal := by
  intro m ρ m' ρ' hpre hagree
  refine ⟨fun c => (fun _ => Cert.KernelIdeal.Val.lossOf m c), Cert.KernelIdeal.Val.run m ρ, ?_⟩
  refine (θ_run Cert.ReferenceIdeal.defs _ _).mono (fun _ h c => ⟨(h c).1.trans ?_, (h c).2⟩)
    (Cert.ReferenceIdeal.Val.run (F := Ideal) m' ρ')
  obtain ⟨h0, h1, h2, h3, h4, h5, h6⟩ := hagree c
  rw [h0, h1, h2, h3, h4, h5, h6, Cert.ReferenceIdeal.Val.outT_eq]
  funext _
  obtain ⟨fx, fW1, fb1, fW2, fb2, flab⟩ := Cert.Pre_finite_inputs.Val.finite_of_pre _ _ _ _ _ _ _ (hpre c)
  exact (lossK_eq_lossR _ _ _ _ _ _ _ (gatherRows_finite _ fx _ _ _ _ _ _ _) (gatherRows_finite _ fx _ _ _ _ _ _ _)
    fW1 fb1 fW2 fb2 flab).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
